-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "inv_temperature" .f32 0x41200000#32 ((134217728 / 13421773 : ℝ) : EReal)
  ∧ IdealRules.named_const.Statement Cert.KernelIdeal.κ "inv_temperature" .f32 0x41200000#32 ((134217728 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v20)) (v1 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_v22) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v73) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x768 : Shape := ⟨2, ![4096, 768]⟩
abbrev S_ : Shape := ⟨0, ![]⟩

class Facts : Prop where
  bcast_S_S4096x768 : S_.BroadcastsInDim S4096x768 (![] : Fin 0 → Fin S4096x768.rank)
  reducesTo_S4096x768_S_d0_1 : S4096x768.ReducesTo [0, 1] S_
  h_S_ : 0 < S_.numel

variable [Facts]

def fn_part1 {F : FTy → Type} [FloatOps F] (main_v13 : IVec S_ 1) (main_v16 : IVec S4096x768 1) : IVec S_ 1 :=
  let main_c_5 : IVec S_ 1 := constantI S_ 1 1#1
  let main_v17 : IVec S_ 1 := (fun x v => Host.reduce IntOp.andi x v reducesTo_S4096x768_S_d0_1 h_S_) main_v16 main_c_5
  let main_v18 : IVec S_ 1 := andi main_v13 main_v17
  main_v18

def fn {F : FTy → Type} [FloatOps F] (main_arg0 : FVec F S4096x768 .f32) (main_arg1 : FVec F S4096x768 .f32) (main_arg2 : FVec F S4096x768 .f32) (main_arg3 : FVec F S4096x768 .f32) : IVec S_ 1 :=
  let main_v0 : FVec F S4096x768 .f32 := Host.absf main_arg0
  let main_cst : FVec F S_ .f32 := constant S_ .f32 0x7F800000#32
  let main_v1 : FVec F S4096x768 .f32 := broadcastInDim S4096x768 ![] bcast_S_S4096x768 main_cst
  let main_v2 : IVec S4096x768 1 := cmpf .olt main_v0 main_v1
  let main_c : IVec S_ 1 := constantI S_ 1 1#1
  let main_v3 : IVec S_ 1 := (fun x v => Host.reduce IntOp.andi x v reducesTo_S4096x768_S_d0_1 h_S_) main_v2 main_c
  let main_v4 : FVec F S4096x768 .f32 := Host.absf main_arg1
  let main_cst_0 : FVec F S_ .f32 := constant S_ .f32 0x7F800000#32
  let main_v5 : FVec F S4096x768 .f32 := broadcastInDim S4096x768 ![] bcast_S_S4096x768 main_cst_0
  let main_v6 : IVec S4096x768 1 := cmpf .olt main_v4 main_v5
  let main_c_1 : IVec S_ 1 := constantI S_ 1 1#1
  let main_v7 : IVec S_ 1 := (fun x v => Host.reduce IntOp.andi x v reducesTo_S4096x768_S_d0_1 h_S_) main_v6 main_c_1
  let main_v8 : IVec S_ 1 := andi main_v3 main_v7
  let main_v9 : FVec F S4096x768 .f32 := Host.absf main_arg2
  let main_cst_2 : FVec F S_ .f32 := constant S_ .f32 0x7F800000#32
  let main_v10 : FVec F S4096x768 .f32 := broadcastInDim S4096x768 ![] bcast_S_S4096x768 main_cst_2
  let main_v11 : IVec S4096x768 1 := cmpf .olt main_v9 main_v10
  let main_c_3 : IVec S_ 1 := constantI S_ 1 1#1
  let main_v12 : IVec S_ 1 := (fun x v => Host.reduce IntOp.andi x v reducesTo_S4096x768_S_d0_1 h_S_) main_v11 main_c_3
  let main_v13 : IVec S_ 1 := andi main_v8 main_v12
  let main_v14 : FVec F S4096x768 .f32 := Host.absf main_arg3
  let main_cst_4 : FVec F S_ .f32 := constant S_ .f32 0x7F800000#32
  let main_v15 : FVec F S4096x768 .f32 := broadcastInDim S4096x768 ![] bcast_S_S4096x768 main_cst_4
  let main_v16 : IVec S4096x768 1 := cmpf .olt main_v14 main_v15
  fn_part1 (F := F) main_v13 main_v16
-- ==== Kernel.lean ====
abbrev S4096x768 : Shape := ⟨2, ![4096, 768]⟩
abbrev S_ : Shape := ⟨0, ![]⟩
abbrev S4096 : Shape := ⟨1, ![4096]⟩
abbrev S4096x1 : Shape := ⟨2, ![4096, 1]⟩
abbrev S1024x768 : Shape := ⟨2, ![1024, 768]⟩
abbrev S512x768 : Shape := ⟨2, ![512, 768]⟩
abbrev S1024x1 : Shape := ⟨2, ![1024, 1]⟩
abbrev S1024 : Shape := ⟨1, ![1024]⟩
abbrev S1024x512 : Shape := ⟨2, ![1024, 512]⟩

abbrev nBuf : Space → Nat
  | .hbm => 36
  | .vmem => 18
  | .smem => 0
  | _ => 0

abbrev bufTy : (tb : Table) → Fin (tcTables nBuf tb) → BufTy
  | .hbm, ⟨0, _⟩ => ⟨S4096x768, .f32⟩
  | .hbm, ⟨1, _⟩ => ⟨S4096x768, .f32⟩
  | .hbm, ⟨2, _⟩ => ⟨S4096x768, .f32⟩
  | .hbm, ⟨3, _⟩ => ⟨S4096x768, .f32⟩
  | .hbm, ⟨4, _⟩ => ⟨S4096x768, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x768, .f32⟩
  | .hbm, ⟨13, _⟩ => ⟨S4096x768, .f32⟩
  | .hbm, ⟨14, _⟩ => ⟨S4096x768, .bf16⟩
  | .hbm, ⟨15, _⟩ => ⟨S4096x768, .f32⟩
  | .hbm, ⟨16, _⟩ => ⟨S_, .f32⟩
  | .hbm, ⟨17, _⟩ => ⟨S4096, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x768, .f32⟩
  | .hbm, ⟨24, _⟩ => ⟨S4096x768, .f32⟩
  | .hbm, ⟨25, _⟩ => ⟨S4096x768, .bf16⟩
  | .hbm, ⟨26, _⟩ => ⟨S4096x1, .f32⟩
  | .hbm, ⟨27, _⟩ => ⟨S4096x1, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .local _ .vmem, ⟨0, _⟩ => ⟨S1024x768, .f32⟩
  | .local _ .vmem, ⟨1, _⟩ => ⟨S1024x768, .f32⟩
  | .local _ .vmem, ⟨2, _⟩ => ⟨S512x768, .bf16⟩
  | .local _ .vmem, ⟨3, _⟩ => ⟨S512x768, .bf16⟩
  | .local _ .vmem, ⟨4, _⟩ => ⟨S1024x768, .f32⟩
  | .local _ .vmem, ⟨5, _⟩ => ⟨S1024x768, .f32⟩
  | .local _ .vmem, ⟨6, _⟩ => ⟨S512x768, .bf16⟩
  | .local _ .vmem, ⟨7, _⟩ => ⟨S512x768, .bf16⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .vmem, ⟨11, _⟩ => ⟨S1024x1, .f32⟩
  | .local _ .vmem, ⟨12, _⟩ => ⟨S1024x1, .f32⟩
  | .local _ .vmem, ⟨13, _⟩ => ⟨S1024x1, .f32⟩
  | .local _ .vmem, ⟨14, _⟩ => ⟨S1024x1, .f32⟩
  | .local _ .vmem, ⟨15, _⟩ => ⟨S1024x1, .f32⟩
  | .local _ .vmem, ⟨16, _⟩ => ⟨S1024x768, .bf16⟩
  | .local _ .vmem, ⟨17, _⟩ => ⟨S1024x768, .bf16⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18_0 : Ref sig .tc := ⟨.hbm, 26, rfl⟩
abbrev main_v18_1 : Ref sig .tc := ⟨.hbm, 27, rfl⟩
abbrev main_cst_3 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v48 : BitVec 1 := Scalar.cmpi .eq arg1 c7_i32
  let v49 : BitVec 32 := Scalar.extui v48
  let c0_i32_31 : BitVec 32 := 0#32
  let v50 : BitVec 1 := Scalar.cmpi .ne v49 c0_i32_31
  v50

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  reducesTo_S4096x768_S4096_d1 : S4096x768.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x768_0_1 : S4096x1.BroadcastsInDim S4096x768 (![0, 1] : Fin 2 → Fin S4096x768.rank)
  bitsLt_bf16_f32 : FTy.bits .bf16 < FTy.bits .f32
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x768_S1024x768_0_0 : ∀ a, (![0, 0] : Fin 2 → Nat) a + S1024x768.size a ≤ S1024x768.size a
  h_S1024x768 : 0 < S1024x768.numel
  reduces_S1024x768_S1024 : S1024x768.Reduces [1] S1024
  shapeCasts_S1024_S1024x1 : S1024.ShapeCasts S1024x1
  broadcasts_S1024x1_S1024x768 : S1024x1.Broadcasts S1024x768
  shapeCasts_S1024x768_S1024x768 : S1024x768.ShapeCasts S1024x768
  packedbf16_S1024x768_S1024x768_0_0 : (Rect.unit (s := S1024x768) ![0, 0] S1024x768.size inb_S1024x768_S1024x768_0_0).PackedRows (EltTy.packing .bf16)
  inb_S512x768_S512x768_0_0 : ∀ a, (![0, 0] : Fin 2 → Nat) a + S512x768.size a ≤ S512x768.size a
  h_S512x768 : 0 < S512x768.numel
  shapeCasts_S512x768_S512x768 : S512x768.ShapeCasts S512x768
  reduces_S1024x512_S1024 : S1024x512.Reduces [1] S1024
  reducesTo_S4096x1_S_d0_1 : S4096x1.ReducesTo [0, 1] S_
  dot_S1024x768_S512x768_S1024x512_1_1_0_0_n_n_wf : DotDims.WF S1024x768 S512x768 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x768.size a ≤ S4096x768.size a
  hwx0_0 : ∀ i : grid0.Coords, EltTy.bits .f32 = 32 ∨ (Rect.block (s := S4096x768) S1024x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x768.size a ≤ S4096x768.size a
  hwx0_1 : ∀ i : grid0.Coords, EltTy.bits .bf16 = 32 ∨ (Rect.block (s := S4096x768) S512x768.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x768.size a ≤ S4096x768.size a
  hwx0_2 : ∀ i : grid0.Coords, EltTy.bits .f32 = 32 ∨ (Rect.block (s := S4096x768) S1024x768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x768.size a ≤ S4096x768.size a
  hwx0_3 : ∀ i : grid0.Coords, EltTy.bits .bf16 = 32 ∨ (Rect.block (s := S4096x768) S512x768.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S4096x1.size a
  hwx0_4 : ∀ i : grid0.Coords, EltTy.bits .f32 = 32 ∨ (Rect.block (s := S4096x1) S1024x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S4096x1.size a
  hwx0_5 : ∀ i : grid0.Coords, EltTy.bits .f32 = 32 ∨ (Rect.block (s := S4096x1) S1024x1.size (cc0_transform_5 i) (hinb0_5 i)).WholeWords (EltTy.packing .f32)

variable [Facts₀]

def dot_S1024x768_S512x768_S1024x512_1_1_0_0_n_n : DotDims S1024x768 S512x768 S1024x512 where
  lhsContracting := [1]
  rhsContracting := [1]
  lhsNonContracting := [0]
  rhsNonContracting := [0]
  lhsBatch := []
  rhsBatch := []
  wf := dot_S1024x768_S512x768_S1024x512_1_1_0_0_n_n_wf

abbrev win0_0 : Pipeline.Window sig grid0 :=
  Pipeline.Window.ofSpec (Memref.whole main_arg0) S1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S512x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x768.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S512x768.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v18_0) S1024x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v18_1) S1024x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

class Facts : Prop extends Facts₀ where

variable [Facts]
-- ==== ReferenceIdeal.lean ====
abbrev S4096x768 : Shape := ⟨2, ![4096, 768]⟩
abbrev S_ : Shape := ⟨0, ![]⟩
abbrev S4096 : Shape := ⟨1, ![4096]⟩
abbrev S4096x1 : Shape := ⟨2, ![4096, 1]⟩
abbrev S768x4096 : Shape := ⟨2, ![768, 4096]⟩
abbrev S4096x4096 : Shape := ⟨2, ![4096, 4096]⟩

abbrev nBuf : Space → Nat
  | .hbm => 98
  | .vmem => 0
  | .smem => 0
  | _ => 0

abbrev bufTy : (tb : Table) → Fin (tcTables nBuf tb) → BufTy
  | .hbm, ⟨0, _⟩ => ⟨S4096x768, .f32⟩
  | .hbm, ⟨1, _⟩ => ⟨S4096x768, .f32⟩
  | .hbm, ⟨2, _⟩ => ⟨S4096x768, .f32⟩
  | .hbm, ⟨3, _⟩ => ⟨S4096x768, .f32⟩
  | .hbm, ⟨4, _⟩ => ⟨S4096x768, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x768, .f32⟩
  | .hbm, ⟨13, _⟩ => ⟨S4096x768, .f32⟩
  | .hbm, ⟨14, _⟩ => ⟨S4096x768, .f32⟩
  | .hbm, ⟨15, _⟩ => ⟨S_, .f32⟩
  | .hbm, ⟨16, _⟩ => ⟨S4096, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x768, .f32⟩
  | .hbm, ⟨23, _⟩ => ⟨S4096x768, .f32⟩
  | .hbm, ⟨24, _⟩ => ⟨S768x4096, .f32⟩
  | .hbm, ⟨25, _⟩ => ⟨S4096x4096, .f32⟩
  | .hbm, ⟨26, _⟩ => ⟨S_, .f32⟩
  | .hbm, ⟨27, _⟩ => ⟨S4096x4096, .f32⟩
  | .hbm, ⟨28, _⟩ => ⟨S4096x4096, .f32⟩
  | .hbm, ⟨29, _⟩ => ⟨S_, .f32⟩
  | .hbm, ⟨30, _⟩ => ⟨S4096, .f32⟩
  | .hbm, ⟨31, _⟩ => ⟨S_, .f32⟩
  | .hbm, ⟨32, _⟩ => ⟨S4096, .f32⟩
  | .hbm, ⟨33, _⟩ => ⟨S4096, .f32⟩
  | .hbm, ⟨34, _⟩ => ⟨S4096x1, .f32⟩
  | .hbm, ⟨35, _⟩ => ⟨S4096x4096, .f32⟩
  | .hbm, ⟨36, _⟩ => ⟨S4096x4096, .f32⟩
  | .hbm, ⟨37, _⟩ => ⟨S4096x4096, .f32⟩
  | .hbm, ⟨38, _⟩ => ⟨S_, .f32⟩
  | .hbm, ⟨39, _⟩ => ⟨S4096, .f32⟩
  | .hbm, ⟨40, _⟩ => ⟨S4096x1, .f32⟩
  | .hbm, ⟨41, _⟩ => ⟨S4096x4096, .f32⟩
  | .hbm, ⟨42, _⟩ => ⟨S4096x4096, .f32⟩
  | .hbm, ⟨43, _⟩ => ⟨S4096x768, .f32⟩
  | .hbm, ⟨44, _⟩ => ⟨S_, .f32⟩
  | .hbm, ⟨45, _⟩ => ⟨S4096, .f32⟩
  | .hbm, ⟨46, _⟩ => ⟨S4096x1, .f32⟩
  | .hbm, ⟨47, _⟩ => ⟨S4096x1, .f32⟩
  | .hbm, ⟨48, _⟩ => ⟨S_, .f32⟩
  | .hbm, ⟨49, _⟩ => ⟨S4096x1, .f32⟩
  | .hbm, ⟨50, _⟩ => ⟨S4096x1, .f32⟩
  | .hbm, ⟨51, _⟩ => ⟨S4096x768, .f32⟩
  | .hbm, ⟨52, _⟩ => ⟨S4096x768, .f32⟩
  | .hbm, ⟨53, _⟩ => ⟨S4096x768, .f32⟩
  | .hbm, ⟨54, _⟩ => ⟨S_, .f32⟩
  | .hbm, ⟨55, _⟩ => ⟨S4096, .f32⟩
  | .hbm, ⟨56, _⟩ => ⟨S4096x1, .f32⟩
  | .hbm, ⟨57, _⟩ => ⟨S4096x1, .f32⟩
  | .hbm, ⟨58, _⟩ => ⟨S_, .f32⟩
  | .hbm, ⟨59, _⟩ => ⟨S4096x1, .f32⟩
  | .hbm, ⟨60, _⟩ => ⟨S4096x1, .f32⟩
  | .hbm, ⟨61, _⟩ => ⟨S4096x768, .f32⟩
  | .hbm, ⟨62, _⟩ => ⟨S4096x768, .f32⟩
  | .hbm, ⟨63, _⟩ => ⟨S768x4096, .f32⟩
  | .hbm, ⟨64, _⟩ => ⟨S4096x4096, .f32⟩
  | .hbm, ⟨65, _⟩ => ⟨S_, .f32⟩
  | .hbm, ⟨66, _⟩ => ⟨S4096x4096, .f32⟩
  | .hbm, ⟨67, _⟩ => ⟨S4096x4096, .f32⟩
  | .hbm, ⟨68, _⟩ => ⟨S_, .f32⟩
  | .hbm, ⟨69, _⟩ => ⟨S4096, .f32⟩
  | .hbm, ⟨70, _⟩ => ⟨S_, .f32⟩
  | .hbm, ⟨71, _⟩ => ⟨S4096, .f32⟩
  | .hbm, ⟨72, _⟩ => ⟨S4096, .f32⟩
  | .hbm, ⟨73, _⟩ => ⟨S4096x1, .f32⟩
  | .hbm, ⟨74, _⟩ => ⟨S4096x4096, .f32⟩
  | .hbm, ⟨75, _⟩ => ⟨S4096x4096, .f32⟩
  | .hbm, ⟨76, _⟩ => ⟨S4096x4096, .f32⟩
  | .hbm, ⟨77, _⟩ => ⟨S_, .f32⟩
  | .hbm, ⟨78, _⟩ => ⟨S4096, .f32⟩
  | .hbm, ⟨79, _⟩ => ⟨S4096x1, .f32⟩
  | .hbm, ⟨80, _⟩ => ⟨S4096x4096, .f32⟩
  | .hbm, ⟨81, _⟩ => ⟨S4096x4096, .f32⟩
  | .hbm, ⟨82, _⟩ => ⟨S4096x4096, .f32⟩
  | .hbm, ⟨83, _⟩ => ⟨S4096x4096, .f32⟩
  | .hbm, ⟨84, _⟩ => ⟨S4096x4096, .f32⟩
  | .hbm, ⟨85, _⟩ => ⟨S4096x4096, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S4096x4096, .f32⟩
  | .hbm, ⟨91, _⟩ => ⟨S4096x4096, .f32⟩
  | .hbm, ⟨92, _⟩ => ⟨S4096x4096, .f32⟩
  | .hbm, ⟨93, _⟩ => ⟨S4096x4096, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_6 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_8 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_9 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_10 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_11 : Ref sig .tc := ⟨.hbm, 65, rfl⟩
abbrev main_v49 : Ref sig .tc := ⟨.hbm, 66, rfl⟩
abbrev main_v50 : Ref sig .tc := ⟨.hbm, 67, rfl⟩
abbrev main_cst_12 : Ref sig .tc := ⟨.hbm, 68, rfl⟩
abbrev main_v51 : Ref sig .tc := ⟨.hbm, 69, rfl⟩
abbrev main_cst_13 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_14 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_cst_15 : Ref sig .tc := ⟨.hbm, 86, rfl⟩
abbrev main_v66 : Ref sig .tc := ⟨.hbm, 87, rfl⟩
abbrev main_cst_16 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_cst_17 : Ref sig .tc := ⟨.hbm, 94, rfl⟩
abbrev main_v72 : Ref sig .tc := ⟨.hbm, 95, rfl⟩
abbrev main_cst_18 : Ref sig .tc := ⟨.hbm, 96, rfl⟩
abbrev main_v73 : Ref sig .tc := ⟨.hbm, 97, rfl⟩

abbrev nD : Nat := 1
abbrev τ : Topo := Topo.v7x

variable {F : FTy → Type} [FloatOps F]

class Facts₀ : Prop where
  reducesTo_S4096x768_S4096_d1 : S4096x768.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x768_0_1 : S4096x1.BroadcastsInDim S4096x768 (![0, 1] : Fin 2 → Fin S4096x768.rank)
  transposes_S4096x768_S768x4096_1_0 : S4096x768.Transposes [1, 0] S768x4096
  bcast_S_S4096x4096 : S_.BroadcastsInDim S4096x4096 (![] : Fin 0 → Fin S4096x4096.rank)
  reducesTo_S4096x4096_S4096_d1 : S4096x4096.ReducesTo [1] S4096
  bcast_S_S4096 : S_.BroadcastsInDim S4096 (![] : Fin 0 → Fin S4096.rank)
  bcast_S4096x1_S4096x4096_0_1 : S4096x1.BroadcastsInDim S4096x4096 (![0, 1] : Fin 2 → Fin S4096x4096.rank)
  reducesTo_S4096x4096_S_d0_1 : S4096x4096.ReducesTo [0, 1] S_
  dot_S4096x768_S768x4096_S4096x4096_1_0_0_1_n_n_wf : DotDims.WF S4096x768 S768x4096 S4096x4096 [1] [0] [0] [1] [] []

variable [Facts₀]

def dot_S4096x768_S768x4096_S4096x4096_1_0_0_1_n_n : DotDims S4096x768 S768x4096 S4096x4096 where
  lhsContracting := [1]
  rhsContracting := [0]
  lhsNonContracting := [0]
  rhsNonContracting := [1]
  lhsBatch := []
  rhsBatch := []
  wf := dot_S4096x768_S768x4096_S4096x4096_1_0_0_1_n_n_wf

class Facts : Prop extends Facts₀ where

variable [Facts]
-- ==== Proof.Pieces.lean ====
/-
  What each control case of the kernel body leaves in its outputs and in the scratch it carries, as the body's own
  arithmetic applied to the blocks and scratch contents the case starts from.

  Case A is a row block's first column step (the accumulators are reset and the two row operands normalised, scaled and
  cached before the step's sums are added); case B a middle column step; case C the last one, which also writes the two
  row losses from the accumulators it has just updated.
-/
import proofs.«418754_j678604833494_3_alg».proof.Proof.Gen.KernelIdeal.Frame
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

variable (c : Dev nD) (i : grid0.Coords)
  (arg2 : Memref sig .tc .vmem S1024x768 .f32) (harg2 : arg2.IsWhole) (arg3 : Memref sig .tc .vmem S512x768 .bf16) (harg3 : arg3.IsWhole)
  (arg4 : Memref sig .tc .vmem S1024x768 .f32) (harg4 : arg4.IsWhole) (arg5 : Memref sig .tc .vmem S512x768 .bf16) (harg5 : arg5.IsWhole)
  (arg6 : Memref sig .tc .vmem S1024x1 .f32) (harg6 : arg6.IsWhole) (arg7 : Memref sig .tc .vmem S1024x1 .f32) (harg7 : arg7.IsWhole)
  (arg8 : Memref sig .tc .vmem S1024x1 .f32) (harg8 : arg8.IsWhole) (arg9 : Memref sig .tc .vmem S1024x1 .f32) (harg9 : arg9.IsWhole)
  (arg10 : Memref sig .tc .vmem S1024x1 .f32) (harg10 : arg10.IsWhole) (arg11 : Memref sig .tc .vmem S1024x1 .f32) (harg11 : arg11.IsWhole)
  (arg12 : Memref sig .tc .vmem S1024x768 .bf16) (harg12 : arg12.IsWhole) (arg13 : Memref sig .tc .vmem S1024x768 .bf16) (harg13 : arg13.IsWhole)

/-- The offsets of a store or load of a whole buffer, spelt as the literal pair of zeros, are the zero offsets. -/
private theorem offsets_zero : (![0, 0] : Fin 2 → ℕ) = fun _ => 0 := funext fun a => by fin_cases a <;> rfl

/-! ## Case A: the first column step of a row block -/

section CaseA

variable (hc0 : cond0_0 i) (hc1 : ¬cond0_1 i)
  (x0 : Vec F S1024x768 .f32) (x1 : Vec F S512x768 .bf16) (x2 : Vec F S1024x768 .f32) (x3 : Vec F S512x768 .bf16)

/-- The normaliser of the first score row block: the reset value plus the step's sum. -/
theorem sout0_A_0_eq : sout0_A_0 c i arg2 harg2 arg3 harg3 arg4 harg4 arg5 harg5 arg6 harg6 arg7 harg7 arg8 harg8 arg9 harg9 arg10 harg10 arg11 harg11 arg12 harg12 arg13 harg13 hc0 hc1 x0 x1 x2 x3 = k0_pay19 (k0_pay11 x0) x1 k0_pay7 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 hc0 hc1 x0 x1 x2 x3)]
  unfold kernelRun0_A
  dsimp only
  sl_unfold_words
  rw [View.canon_cons_unit_zero (S := S1024x1) offsets_zero]
  simp only [View.readAt_eq_ld, harg2.read_unread, harg3.read_unread, harg4.read_unread, harg5.read_unread, harg8.read_unread, harg9.read_unread, harg10.read_unread, harg11.read_unread, harg12.read_unread, harg13.read_unread,
    View.ld_unit_zero (S := S1024x768) offsets_zero, View.ld_unit_zero (S := S512x768) offsets_zero, View.ld_unit_zero (S := S1024x1) offsets_zero,
    View.readCov_unit_zero (S := S1024x1) _ offsets_zero, View.readCov_unit_zero (S := S1024x768) _ offsets_zero]

/-- The normaliser of the second. -/
theorem sout0_A_1_eq : sout0_A_1 c i arg2 harg2 arg3 harg3 arg4 harg4 arg5 harg5 arg6 harg6 arg7 harg7 arg8 harg8 arg9 harg9 arg10 harg10 arg11 harg11 arg12 harg12 arg13 harg13 hc0 hc1 x0 x1 x2 x3 = k0_pay20 (k0_pay13 x2 (k0_pay12 x2)) x3 k0_pay8 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 hc0 hc1 x0 x1 x2 x3)]
  unfold kernelRun0_A
  dsimp only
  sl_unfold_words
  rw [View.canon_cons_unit_zero (S := S1024x1) offsets_zero]
  simp only [View.readAt_eq_ld, harg2.read_unread, harg3.read_unread, harg4.read_unread, harg5.read_unread, harg8.read_unread, harg9.read_unread, harg10.read_unread, harg11.read_unread, harg12.read_unread, harg13.read_unread,
    View.ld_unit_zero (S := S1024x768) offsets_zero, View.ld_unit_zero (S := S512x768) offsets_zero, View.ld_unit_zero (S := S1024x1) offsets_zero,
    View.readCov_unit_zero (S := S1024x1) _ offsets_zero, View.readCov_unit_zero (S := S1024x768) _ offsets_zero]

/-- The accumulator that subtracts. -/
theorem sout0_A_2_eq : sout0_A_2 c i arg2 harg2 arg3 harg3 arg4 harg4 arg5 harg5 arg6 harg6 arg7 harg7 arg8 harg8 arg9 harg9 arg10 harg10 arg11 harg11 arg12 harg12 arg13 harg13 hc0 hc1 x0 x1 x2 x3 = k0_pay2 (k0_pay16 (k0_pay11 x0) x1 (k0_pay13 x2 (k0_pay12 x2)) x3) (k0_pay18 (k0_pay13 x2 (k0_pay12 x2)) x3) k0_pay9 := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 arg13 harg13 hc0 hc1 x0 x1 x2 x3)]
  unfold kernelRun0_A
  dsimp only
  sl_unfold_words
  rw [View.canon_cons_unit_zero (S := S1024x1) offsets_zero]
  simp only [View.readAt_eq_ld, harg2.read_unread, harg3.read_unread, harg4.read_unread, harg5.read_unread, harg8.read_unread, harg9.read_unread, harg10.read_unread, harg11.read_unread, harg12.read_unread, harg13.read_unread,
    View.ld_unit_zero (S := S1024x768) offsets_zero, View.ld_unit_zero (S := S512x768) offsets_zero, View.ld_unit_zero (S := S1024x1) offsets_zero,
    View.readCov_unit_zero (S := S1024x1) _ offsets_zero, View.readCov_unit_zero (S := S1024x768) _ offsets_zero]

/-- The accumulator that adds. -/
theorem sout0_A_3_eq : sout0_A_3 c i arg2 harg2 arg3 harg3 arg4 harg4 arg5 harg5 arg6 harg6 arg7 harg7 arg8 harg8 arg9 harg9 arg10 harg10 arg11 harg11 arg12 harg12 arg13 harg13 hc0 hc1 x0 x1 x2 x3 = k0_pay1 (k0_pay16 (k0_pay11 x0) x1 (k0_pay13 x2 (k0_pay12 x2)) x3) (k0_pay17 (k0_pay11 x0) x1) k0_pay10 := by
  unfold sout0_A_3
  rw [View.read_writes_eq_canon _ _ _ (scover0_A_3 c i arg2 harg2 arg3 harg3 arg4 harg4 arg5 harg5 arg6 harg6 arg7 harg7 arg8 harg8 arg9 harg9 arg10 harg10 arg11 harg11 arg12 harg12 arg13 harg13 hc0 hc1 x0 x1 x2 x3)]
  unfold kernelRun0_A
  dsimp only
  sl_unfold_words
  rw [View.canon_cons_unit_zero (S := S1024x1) offsets_zero]
  simp only [View.readAt_eq_ld, harg2.read_unread, harg3.read_unread, harg4.read_unread, harg5.read_unread, harg8.read_unread, harg9.read_unread, harg10.read_unread, harg11.read_unread, harg12.read_unread, harg13.read_unread,
    View.ld_unit_zero (S := S1024x768) offsets_zero, View.ld_unit_zero (S := S512x768) offsets_zero, View.ld_unit_zero (S := S1024x1) offsets_zero,
    View.readCov_unit_zero (S := S1024x1) _ offsets_zero, View.readCov_unit_zero (S := S1024x768) _ offsets_zero]

/-- The cached first row operand. -/
theorem sout0_A_4_eq : sout0_A_4 c i arg2 harg2 arg3 harg3 arg4 harg4 arg5 harg5 arg6 harg6 arg7 harg7 arg8 harg8 arg9 harg9 arg10 harg10 arg11 harg11 arg12 harg12 arg13 harg13 hc0 hc1 x0 x1 x2 x3 = k0_pay11 x0 := by
  unfold sout0_A_4
  rw [View.read_writes_eq_canon _ _ _ (scover0_A_4 c i arg2 harg2 arg3 harg3 arg4 harg4 arg5 harg5 arg6 harg6 arg7 harg7 arg8 harg8 arg9 harg9 arg10 harg10 arg11 harg11 arg12 harg12 arg13 harg13 hc0 hc1 x0 x1 x2 x3)]
  unfold kernelRun0_A
  dsimp only
  sl_unfold_words
  rw [View.canon_unit_zero (S := S1024x768) offsets_zero]
  simp only [View.readAt_eq_ld, harg2.read_unread, harg3.read_unread, harg4.read_unread, harg5.read_unread, harg8.read_unread, harg9.read_unread, harg10.read_unread, harg11.read_unread, harg12.read_unread, harg13.read_unread,
    View.ld_unit_zero (S := S1024x768) offsets_zero, View.ld_unit_zero (S := S512x768) offsets_zero, View.ld_unit_zero (S := S1024x1) offsets_zero,
    View.readCov_unit_zero (S := S1024x1) _ offsets_zero, View.readCov_unit_zero (S := S1024x768) _ offsets_zero]

/-- The cached second row operand. -/
theorem sout0_A_5_eq : sout0_A_5 c i arg2 harg2 arg3 harg3 arg4 harg4 arg5 harg5 arg6 harg6 arg7 harg7 arg8 harg8 arg9 harg9 arg10 harg10 arg11 harg11 arg12 harg12 arg13 harg13 hc0 hc1 x0 x1 x2 x3 = k0_pay13 x2 (k0_pay12 x2) := by
  unfold sout0_A_5
  rw [View.read_writes_eq_canon _ _ _ (scover0_A_5 c i arg2 harg2 arg3 harg3 arg4 harg4 arg5 harg5 arg6 harg6 arg7 harg7 arg8 harg8 arg9 harg9 arg10 harg10 arg11 harg11 arg12 harg12 arg13 harg13 hc0 hc1 x0 x1 x2 x3)]
  unfold kernelRun0_A
  dsimp only
  sl_unfold_words
  rw [View.canon_unit_zero (S := S1024x768) offsets_zero]
  simp only [View.readAt_eq_ld, harg2.read_unread, harg3.read_unread, harg4.read_unread, harg5.read_unread, harg8.read_unread, harg9.read_unread, harg10.read_unread, harg11.read_unread, harg12.read_unread, harg13.read_unread,
    View.ld_unit_zero (S := S1024x768) offsets_zero, View.ld_unit_zero (S := S512x768) offsets_zero, View.ld_unit_zero (S := S1024x1) offsets_zero,
    View.readCov_unit_zero (S := S1024x1) _ offsets_zero, View.readCov_unit_zero (S := S1024x768) _ offsets_zero]

end CaseA

/-! ## Case B: a middle column step -/

section CaseB

variable (hc0 : ¬cond0_0 i) (hc1 : ¬cond0_1 i)
  (x0 : Vec F S1024x768 .f32) (x1 : Vec F S512x768 .bf16) (x2 : Vec F S1024x768 .f32) (x3 : Vec F S512x768 .bf16)
  (xs0 : Vec F S1024x1 .f32) (xs1 : Vec F S1024x1 .f32) (xs2 : Vec F S1024x1 .f32) (xs3 : Vec F S1024x1 .f32)
  (xs4 : Vec F S1024x768 .bf16) (xs5 : Vec F S1024x768 .bf16)

/-- The first normaliser, one more column block added. -/
theorem sout0_B_0_eq : sout0_B_0 c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5 = k0_pay19 xs4 x1 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5)]
  unfold kernelRun0_B
  dsimp only
  sl_unfold_words
  rw [View.canon_unit_zero (S := S1024x1) offsets_zero]
  simp only [View.readAt_eq_ld, harg2.read_unread, harg3.read_unread, harg4.read_unread, harg5.read_unread, harg8.read_unread, harg9.read_unread, harg10.read_unread, harg11.read_unread, harg12.read_unread, harg13.read_unread,
    View.ld_unit_zero (S := S1024x768) offsets_zero, View.ld_unit_zero (S := S512x768) offsets_zero, View.ld_unit_zero (S := S1024x1) offsets_zero,
    View.readCov_unit_zero (S := S1024x1) _ offsets_zero, View.readCov_unit_zero (S := S1024x768) _ offsets_zero]

/-- The second normaliser. -/
theorem sout0_B_1_eq : sout0_B_1 c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5 = k0_pay20 xs5 x3 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5)]
  unfold kernelRun0_B
  dsimp only
  sl_unfold_words
  rw [View.canon_unit_zero (S := S1024x1) offsets_zero]
  simp only [View.readAt_eq_ld, harg2.read_unread, harg3.read_unread, harg4.read_unread, harg5.read_unread, harg8.read_unread, harg9.read_unread, harg10.read_unread, harg11.read_unread, harg12.read_unread, harg13.read_unread,
    View.ld_unit_zero (S := S1024x768) offsets_zero, View.ld_unit_zero (S := S512x768) offsets_zero, View.ld_unit_zero (S := S1024x1) offsets_zero,
    View.readCov_unit_zero (S := S1024x1) _ offsets_zero, View.readCov_unit_zero (S := S1024x768) _ offsets_zero]

/-- The accumulator that subtracts. -/
theorem sout0_B_2_eq : sout0_B_2 c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5 = k0_pay2 (k0_pay16 xs4 x1 xs5 x3) (k0_pay18 xs5 x3) xs2 := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5)]
  unfold kernelRun0_B
  dsimp only
  sl_unfold_words
  rw [View.canon_unit_zero (S := S1024x1) offsets_zero]
  simp only [View.readAt_eq_ld, harg2.read_unread, harg3.read_unread, harg4.read_unread, harg5.read_unread, harg8.read_unread, harg9.read_unread, harg10.read_unread, harg11.read_unread, harg12.read_unread, harg13.read_unread,
    View.ld_unit_zero (S := S1024x768) offsets_zero, View.ld_unit_zero (S := S512x768) offsets_zero, View.ld_unit_zero (S := S1024x1) offsets_zero,
    View.readCov_unit_zero (S := S1024x1) _ offsets_zero, View.readCov_unit_zero (S := S1024x768) _ offsets_zero]

/-- The accumulator that adds. -/
theorem sout0_B_3_eq : sout0_B_3 c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5 = k0_pay1 (k0_pay16 xs4 x1 xs5 x3) (k0_pay17 xs4 x1) xs3 := by
  unfold sout0_B_3
  rw [View.read_writes_eq_canon _ _ _ (scover0_B_3 c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5)]
  unfold kernelRun0_B
  dsimp only
  sl_unfold_words
  rw [View.canon_unit_zero (S := S1024x1) offsets_zero]
  simp only [View.readAt_eq_ld, harg2.read_unread, harg3.read_unread, harg4.read_unread, harg5.read_unread, harg8.read_unread, harg9.read_unread, harg10.read_unread, harg11.read_unread, harg12.read_unread, harg13.read_unread,
    View.ld_unit_zero (S := S1024x768) offsets_zero, View.ld_unit_zero (S := S512x768) offsets_zero, View.ld_unit_zero (S := S1024x1) offsets_zero,
    View.readCov_unit_zero (S := S1024x1) _ offsets_zero, View.readCov_unit_zero (S := S1024x768) _ offsets_zero]

end CaseB

/-! ## Case C: the last column step -/

section CaseC

variable (hc0 : ¬cond0_0 i) (hc1 : cond0_1 i)
  (x0 : Vec F S1024x768 .f32) (x1 : Vec F S512x768 .bf16) (x2 : Vec F S1024x768 .f32) (x3 : Vec F S512x768 .bf16)
  (xs0 : Vec F S1024x1 .f32) (xs1 : Vec F S1024x1 .f32) (xs2 : Vec F S1024x1 .f32) (xs3 : Vec F S1024x1 .f32)
  (xs4 : Vec F S1024x768 .bf16) (xs5 : Vec F S1024x768 .bf16)

/-- The first normaliser, the last column block added. -/
theorem sout0_C_0_eq : sout0_C_0 c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5 = k0_pay19 xs4 x1 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5)]
  unfold kernelRun0_C
  dsimp only
  sl_unfold_words
  rw [View.canon_unit_zero (S := S1024x1) offsets_zero]
  simp only [View.readAt_eq_ld, harg2.read_unread, harg3.read_unread, harg4.read_unread, harg5.read_unread, harg8.read_unread, harg9.read_unread, harg10.read_unread, harg11.read_unread, harg12.read_unread, harg13.read_unread,
    View.ld_unit_zero (S := S1024x768) offsets_zero, View.ld_unit_zero (S := S512x768) offsets_zero, View.ld_unit_zero (S := S1024x1) offsets_zero,
    View.readCov_unit_zero (S := S1024x1) _ offsets_zero, View.readCov_unit_zero (S := S1024x768) _ offsets_zero]

/-- The second normaliser. -/
theorem sout0_C_1_eq : sout0_C_1 c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5 = k0_pay20 xs5 x3 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5)]
  unfold kernelRun0_C
  dsimp only
  sl_unfold_words
  rw [View.canon_unit_zero (S := S1024x1) offsets_zero]
  simp only [View.readAt_eq_ld, harg2.read_unread, harg3.read_unread, harg4.read_unread, harg5.read_unread, harg8.read_unread, harg9.read_unread, harg10.read_unread, harg11.read_unread, harg12.read_unread, harg13.read_unread,
    View.ld_unit_zero (S := S1024x768) offsets_zero, View.ld_unit_zero (S := S512x768) offsets_zero, View.ld_unit_zero (S := S1024x1) offsets_zero,
    View.readCov_unit_zero (S := S1024x1) _ offsets_zero, View.readCov_unit_zero (S := S1024x768) _ offsets_zero]

/-- The accumulator that subtracts. -/
theorem sout0_C_2_eq : sout0_C_2 c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5 = k0_pay2 (k0_pay16 xs4 x1 xs5 x3) (k0_pay18 xs5 x3) xs2 := by
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5)]
  unfold kernelRun0_C
  dsimp only
  sl_unfold_words
  rw [View.canon_unit_zero (S := S1024x1) offsets_zero]
  simp only [View.readAt_eq_ld, harg2.read_unread, harg3.read_unread, harg4.read_unread, harg5.read_unread, harg8.read_unread, harg9.read_unread, harg10.read_unread, harg11.read_unread, harg12.read_unread, harg13.read_unread,
    View.ld_unit_zero (S := S1024x768) offsets_zero, View.ld_unit_zero (S := S512x768) offsets_zero, View.ld_unit_zero (S := S1024x1) offsets_zero,
    View.readCov_unit_zero (S := S1024x1) _ offsets_zero, View.readCov_unit_zero (S := S1024x768) _ offsets_zero]

/-- The accumulator that adds. -/
theorem sout0_C_3_eq : sout0_C_3 c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5 = k0_pay1 (k0_pay16 xs4 x1 xs5 x3) (k0_pay17 xs4 x1) xs3 := by
  unfold sout0_C_3
  rw [View.read_writes_eq_canon _ _ _ (scover0_C_3 c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5)]
  unfold kernelRun0_C
  dsimp only
  sl_unfold_words
  rw [View.canon_unit_zero (S := S1024x1) offsets_zero]
  simp only [View.readAt_eq_ld, harg2.read_unread, harg3.read_unread, harg4.read_unread, harg5.read_unread, harg8.read_unread, harg9.read_unread, harg10.read_unread, harg11.read_unread, harg12.read_unread, harg13.read_unread,
    View.ld_unit_zero (S := S1024x768) offsets_zero, View.ld_unit_zero (S := S512x768) offsets_zero, View.ld_unit_zero (S := S1024x1) offsets_zero,
    View.readCov_unit_zero (S := S1024x1) _ offsets_zero, View.readCov_unit_zero (S := S1024x768) _ offsets_zero]

/-- The first row loss, from the accumulators as this step leaves them. -/
theorem out0_C_4_eq : out0_C_4 c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5 = k0_pay5 (k0_pay19 xs4 x1 xs0) (k0_pay20 xs5 x3 xs1) (k0_pay2 (k0_pay16 xs4 x1 xs5 x3) (k0_pay18 xs5 x3) xs2) (k0_pay20 xs5 x3 xs1) := by
  unfold out0_C_4
  rw [View.read_writes_eq_canon _ _ _ (cover0_C_4 c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5)]
  unfold kernelRun0_C
  dsimp only
  sl_unfold_words
  rw [View.canon_unit_zero (S := S1024x1) offsets_zero]
  simp only [View.readAt_eq_ld, harg2.read_unread, harg3.read_unread, harg4.read_unread, harg5.read_unread, harg8.read_unread, harg9.read_unread, harg10.read_unread, harg11.read_unread, harg12.read_unread, harg13.read_unread,
    View.ld_unit_zero (S := S1024x768) offsets_zero, View.ld_unit_zero (S := S512x768) offsets_zero, View.ld_unit_zero (S := S1024x1) offsets_zero,
    View.readCov_unit_zero (S := S1024x1) _ offsets_zero, View.readCov_unit_zero (S := S1024x768) _ offsets_zero]

/-- The second row loss. -/
theorem out0_C_5_eq : out0_C_5 c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5 = k0_pay6 (k0_pay19 xs4 x1 xs0) (k0_pay20 xs5 x3 xs1) (k0_pay1 (k0_pay16 xs4 x1 xs5 x3) (k0_pay17 xs4 x1) xs3) (k0_pay19 xs4 x1 xs0) := by
  unfold out0_C_5
  rw [View.read_writes_eq_canon _ _ _ (cover0_C_5 c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5)]
  unfold kernelRun0_C
  dsimp only
  sl_unfold_words
  rw [View.canon_unit_zero (S := S1024x1) offsets_zero]
  simp only [View.readAt_eq_ld, harg2.read_unread, harg3.read_unread, harg4.read_unread, harg5.read_unread, harg8.read_unread, harg9.read_unread, harg10.read_unread, harg11.read_unread, harg12.read_unread, harg13.read_unread,
    View.ld_unit_zero (S := S1024x768) offsets_zero, View.ld_unit_zero (S := S512x768) offsets_zero, View.ld_unit_zero (S := S1024x1) offsets_zero,
    View.readCov_unit_zero (S := S1024x1) _ offsets_zero, View.readCov_unit_zero (S := S1024x768) _ offsets_zero]

end CaseC

end Cert.KernelIdeal.Gen

end
-- ==== Proof.RealMath.lean ====
/-
  The real analysis behind the certificate, with no program in sight.

  A row of scores `s j` has softmax `exp (s j - M) / ∑ exp (s j' - M)`, whatever the shift `M` (the reference shifts by
  the row's maximum, the kernel by a constant).  The KL divergence of one row of the target distribution `q_t` from
  the other `q_s`, `∑ j, q_t j * (log (q_t j) - log (q_s j))`, is then
  `(∑ j, exp (t j - c) * (t j - s j)) / ∑ exp (t j - c)  +  (log ∑ exp (s j - c)  -  log ∑ exp (t j - c))`
  for every constant `c`: the logarithm of a softmax is the score minus the log-sum-exp, and `q_t` sums to one.
-/
import Mathlib.Analysis.SpecialFunctions.Log.Basic
import Mathlib.Algebra.BigOperators.Field
import Mathlib.Algebra.Order.BigOperators.Ring.Finset

noncomputable section

namespace Cert.KL

open Finset

variable {J : Type*} [Fintype J]

/-- A softmax does not depend on the shift subtracted from every score. -/
theorem softmax_shift (t : J → ℝ) (M c : ℝ) (j : J) :
    Real.exp (t j - M) / ∑ j', Real.exp (t j' - M) = Real.exp (t j - c) / ∑ j', Real.exp (t j' - c) := by
  have h : ∀ x : ℝ, Real.exp (x - M) = Real.exp (x - c) * Real.exp (c - M) := fun x => by
    rw [← Real.exp_add]; congr 1; ring
  rw [h (t j), Finset.sum_congr rfl (fun j' _ => h (t j')), ← Finset.sum_mul,
    mul_div_mul_right _ _ (Real.exp_ne_zero _)]

/-- The sum of exponentials over a nonempty index set is positive. -/
theorem sum_exp_pos [Nonempty J] (t : J → ℝ) (c : ℝ) : 0 < ∑ j, Real.exp (t j - c) :=
  Finset.sum_pos (fun _ _ => Real.exp_pos _) Finset.univ_nonempty

/-- The logarithm of a softmax: the shifted score minus the log-sum-exp. -/
theorem log_softmax [Nonempty J] (u : J → ℝ) (c : ℝ) (j : J) :
    Real.log (Real.exp (u j - c) / ∑ j', Real.exp (u j' - c)) = (u j - c) - Real.log (∑ j', Real.exp (u j' - c)) := by
  rw [Real.log_div (Real.exp_ne_zero _) (sum_exp_pos u c).ne', Real.log_exp]

/-- One row of the KL divergence `KL(q_t ‖ q_s)` of two softmaxes (each shifted by anything), as the kernel
    accumulates it under one common shift `c`. -/
theorem kl_row [Nonempty J] (s t : J → ℝ) (Ms Mt c : ℝ) :
    ∑ j, (Real.exp (t j - Mt) / ∑ j', Real.exp (t j' - Mt)) *
        (Real.log (Real.exp (t j - Mt) / ∑ j', Real.exp (t j' - Mt))
          - Real.log (Real.exp (s j - Ms) / ∑ j', Real.exp (s j' - Ms)))
      = (-(∑ j, Real.exp (t j - c) * (s j - t j))) / (∑ j, Real.exp (t j - c))
        + ((c + Real.log (∑ j, Real.exp (s j - c))) - (c + Real.log (∑ j, Real.exp (t j - c)))) := by
  have hlt := sum_exp_pos t c
  simp only [softmax_shift t Mt c, softmax_shift s Ms c, log_softmax]
  have h : ∀ j, Real.exp (t j - c) / (∑ j', Real.exp (t j' - c)) *
      (t j - c - Real.log (∑ j', Real.exp (t j' - c)) - (s j - c - Real.log (∑ j', Real.exp (s j' - c))))
      = (Real.exp (t j - c) * (t j - s j)) / (∑ j', Real.exp (t j' - c))
        + (Real.exp (t j - c) / (∑ j', Real.exp (t j' - c)))
          * (Real.log (∑ j', Real.exp (s j' - c)) - Real.log (∑ j', Real.exp (t j' - c))) := fun j => by ring
  simp only [h, Finset.sum_add_distrib, ← Finset.sum_mul, ← Finset.sum_div]
  rw [div_self hlt.ne', one_mul]
  have e : ∑ j, Real.exp (t j - c) * (t j - s j) = -(∑ j, Real.exp (t j - c) * (s j - t j)) := by
    rw [← Finset.sum_neg_distrib]; exact Finset.sum_congr rfl fun j _ => by ring
  rw [e]; ring

end Cert.KL

end
-- ==== Proof.Consts.lean ====
/-
  The float constants the two programs spell, as the extended reals their words denote.
  `ε` (the cosine-similarity guard `1e-8` as f32) is a positive real; the reference's temperature word is the
  rational `13421773 / 134217728`; the kernel's softmax shift `10.5` and the mean's divisor `2^24` are reals;
  the zero word is `0` and the word of `-∞` is `⊥`.
-/
import Idealize.ShloMosaic.PureOps.Ideal

noncomputable section

namespace Cert.KL.Consts

open Idealize.ShloMosaic

/-- The guard `ε` as a real number. -/
def epsR : ℝ := 11258999 / 1125899906842624

theorem epsR_pos : 0 < epsR := by unfold epsR; norm_num

theorem ofBits_eps : Ideal.ofBits .f32 0x322BCC77#32 = ((epsR : ℝ) : EReal) := by
  simp [Ideal.ofBits, Ideal.ieee, -EReal.coe_mul, epsR]; norm_num

/-- The reference's temperature, the f32 nearest to `0.1`, as a real number. -/
def tempR : ℝ := 13421773 / 134217728

theorem tempR_pos : 0 < tempR := by unfold tempR; norm_num

theorem ofBits_temp : Ideal.ofBits .f32 0x3DCCCCCD#32 = ((tempR : ℝ) : EReal) := by
  simp [Ideal.ofBits, Ideal.ieee, -EReal.coe_mul, tempR]; norm_num

/-- The kernel's softmax shift. -/
theorem ofBits_shift : Ideal.ofBits .f32 0x41280000#32 = (((21 / 2 : ℝ)) : EReal) := by
  simp [Ideal.ofBits, Ideal.ieee, -EReal.coe_mul]; norm_num

/-- The number of entries of a score matrix, `4096 * 4096`. -/
theorem ofBits_count : Ideal.ofBits .f32 0x4B800000#32 = (((16777216 : ℝ)) : EReal) := by
  simp [Ideal.ofBits, Ideal.ieee, -EReal.coe_mul]; norm_num

theorem ofBits_zero : Ideal.ofBits .f32 0x00000000#32 = 0 := by
  simp [Ideal.ofBits, Ideal.ieee]

theorem ofBits_neg_inf : Ideal.ofBits .f32 0xFF800000#32 = ⊥ := by
  simp [Ideal.ofBits, Ideal.ieee]

end Cert.KL.Consts

end
-- ==== Proof.Spec.lean ====
/-
  What both programs compute, over the reals.

  Each input is a `4096 × 768` array of reals.  A row is normalised by `max ‖row‖ ε` (cosine similarity's guard).
  The score of row `i` of `x` against row `j` of `y` is their cosine similarity over the temperature; the kernel
  multiplies the normalised row by the reciprocal temperature before the product, the reference divides after it.
  One row's loss is the KL divergence between the softmaxes of the two score rows; the kernel accumulates it, column
  block by column block, as sums of `exp (score - c)` for a constant `c`; the loss is the mean over all `4096²` entries.
-/
import Idealize.ShloMosaic.Lib.ValueIdx
import proofs.«418754_j678604833494_3_alg».proof.Proof.RealMath
import proofs.«418754_j678604833494_3_alg».proof.Proof.Consts

noncomputable section

namespace Cert.KL

open Idealize.ShloMosaic Idealize.ShloMosaic.ValueIdx Cert.KL.Consts

/-- An array of `R` rows of `768` reals, indexed as the programs index their arrays. -/
abbrev Mat (R : ℕ) : Type := (⟨2, ![R, 768]⟩ : Shape).Idx → ℝ

/-- An array of reals read as an array of extended reals. -/
abbrev up {S : Shape} (x : S.Idx → ℝ) : S.Idx → EReal := fun i => ((x i : ℝ) : EReal)

/-- The divisor that normalises row `i`: its Euclidean norm, or `ε` if that is larger. -/
def den {R : ℕ} (x : Mat R) (i : Fin R) : ℝ := max (Real.sqrt (∑ k : Fin 768, x (ix2 i k) * x (ix2 i k))) epsR

theorem den_pos {R : ℕ} (x : Mat R) (i : Fin R) : 0 < den x i := lt_max_of_lt_right epsR_pos

/-- The sum of squares of a row is nonnegative. -/
theorem sumsq_nonneg {R : ℕ} (x : Mat R) (i : Fin R) : 0 ≤ ∑ k : Fin 768, x (ix2 i k) * x (ix2 i k) :=
  Finset.sum_nonneg fun k _ => mul_self_nonneg _

/-- Row `i` normalised. -/
def nrm {R : ℕ} (x : Mat R) (i : Fin R) (k : Fin 768) : ℝ := x (ix2 i k) / den x i

/-- The reciprocal of the reference's temperature: the value the kernel's scale denotes. -/
def invTemp : ℝ := 134217728 / 13421773

theorem invTemp_eq : invTemp = 1 / tempR := by unfold invTemp tempR; norm_num

/-- The score as the kernel forms it: the scaled normalised row against the normalised column. -/
def kscore {R C : ℕ} (x : Mat R) (y : Mat C) (i : Fin R) (j : Fin C) : ℝ :=
  ∑ k : Fin 768, (nrm x i k * invTemp) * nrm y j k

/-- The score as the reference forms it: the cosine similarity over the temperature. -/
def rscore {R C : ℕ} (x : Mat R) (y : Mat C) (i : Fin R) (j : Fin C) : ℝ :=
  (∑ k : Fin 768, nrm x i k * nrm y j k) / tempR

theorem kscore_eq_rscore {R C : ℕ} (x : Mat R) (y : Mat C) (i : Fin R) (j : Fin C) :
    kscore x y i j = rscore x y i j := by
  unfold kscore rscore
  rw [invTemp_eq, Finset.sum_div]
  exact Finset.sum_congr rfl fun k _ => by ring

/-- The kernel's softmax shift. -/
def shiftR : ℝ := 21 / 2

/-- The sum of `f` over the first `n` columns. -/
def pre (n : ℕ) (f : Fin 4096 → ℝ) : ℝ := ∑ k ∈ Finset.range n, (if h : k < 4096 then f ⟨k, h⟩ else 0)

theorem pre_zero (f : Fin 4096 → ℝ) : pre 0 f = 0 := by simp [pre]

/-- One more block of `512` columns. -/
theorem pre_block (b : ℕ) (hb : b < 8) (f : Fin 4096 → ℝ) :
    pre (512 * b + 512) f = pre (512 * b) f + ∑ q : Fin 512, f ⟨512 * b + q.val, by have := q.isLt; omega⟩ := by
  unfold pre
  rw [Finset.sum_range_add]
  refine congrArg (_ + ·) ?_
  rw [Finset.sum_range]
  refine Finset.sum_congr rfl fun q _ => ?_
  rw [dif_pos (by have := q.isLt; omega)]

/-- All the columns. -/
theorem pre_all (f : Fin 4096 → ℝ) : pre 4096 f = ∑ j, f j := by
  unfold pre
  rw [Finset.sum_range]
  exact Finset.sum_congr rfl fun j _ => by rw [dif_pos j.isLt]

/-- The row loss as the kernel's last column step writes it, from its four accumulators over all the columns:
    `l_s = ∑ exp (s - c)`, `l_t = ∑ exp (t - c)`, `acc = -∑ exp (t - c) (s - t)`. -/
def rowK (s t : Fin 4096 → ℝ) : ℝ :=
  (-(∑ j, Real.exp (t j - shiftR) * (s j - t j))) / (∑ j, Real.exp (t j - shiftR))
    + ((shiftR + Real.log (∑ j, Real.exp (s j - shiftR))) - (shiftR + Real.log (∑ j, Real.exp (t j - shiftR))))

/-- The other row loss (the roles of the two score rows exchanged), as the kernel writes it: its accumulator
    `acc' = ∑ exp (s - c) (s - t)` over `l_s`. -/
theorem rowK_swap (s t : Fin 4096 → ℝ) :
    (∑ j, Real.exp (s j - shiftR) * (s j - t j)) / (∑ j, Real.exp (s j - shiftR))
      + ((shiftR + Real.log (∑ j, Real.exp (t j - shiftR))) - (shiftR + Real.log (∑ j, Real.exp (s j - shiftR))))
    = rowK t s := by
  unfold rowK
  have e : ∑ j, Real.exp (s j - shiftR) * (s j - t j) = -(∑ j, Real.exp (s j - shiftR) * (t j - s j)) := by
    rw [← Finset.sum_neg_distrib]; exact Finset.sum_congr rfl fun j _ => by ring
  rw [e]

/-- A softmax entry, shifted by `M`. -/
def soft (u : Fin 4096 → ℝ) (M : ℝ) (j : Fin 4096) : ℝ := Real.exp (u j - M) / ∑ j', Real.exp (u j' - M)

theorem soft_pos (u : Fin 4096 → ℝ) (M : ℝ) (j : Fin 4096) : 0 < soft u M j :=
  div_pos (Real.exp_pos _) (sum_exp_pos u M)

/-- The row loss as the reference forms it, each softmax shifted by anything. -/
def rowR (s t : Fin 4096 → ℝ) (Ms Mt : ℝ) : ℝ :=
  ∑ j, soft t Mt j * (Real.log (soft t Mt j) - Real.log (soft s Ms j))

theorem rowR_eq_rowK (s t : Fin 4096 → ℝ) (Ms Mt : ℝ) : rowR s t Ms Mt = rowK s t :=
  kl_row s t Ms Mt shiftR

/-- The loss `KL(q_t ‖ q_s)` averaged over all entries, as the kernel computes it (`x y` give the scores `s`,
    `z w` the scores `t`). -/
def lossK (x y z w : Mat 4096) : ℝ :=
  (∑ i : Fin 4096, rowK (kscore x y i) (kscore z w i)) / 16777216

/-- The same loss as the reference computes it, row `i`'s two softmaxes shifted by `Ms i` and `Mt i`. -/
def lossR (x y z w : Mat 4096) (Ms Mt : Fin 4096 → ℝ) : ℝ :=
  (∑ i : Fin 4096, rowR (rscore x y i) (rscore z w i) (Ms i) (Mt i)) / 16777216

theorem lossR_eq_lossK (x y z w : Mat 4096) (Ms Mt : Fin 4096 → ℝ) : lossR x y z w Ms Mt = lossK x y z w := by
  unfold lossR lossK
  refine congrArg (· / _) (Finset.sum_congr rfl fun i _ => ?_)
  rw [rowR_eq_rowK]
  congr 1 <;> funext j <;> exact (kscore_eq_rscore _ _ _ _).symm

end Cert.KL

end
-- ==== Proof.Transfer.lean ====
/-
  Reading the exact operations of the extended reals on REAL arguments: a sum of reals, a quotient by a nonzero real,
  the square root of a nonnegative real, the logarithm of a positive real, the maximum of two reals are the reals one expects.
-/
import Idealize.ShloMosaic.PureOps.Ideal

noncomputable section

namespace Cert.KL.Transfer

open Idealize.ShloMosaic

/-- A finite sum of reals, summed in the extended reals. -/
theorem coe_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The quotient of two reals with a nonzero divisor. -/
theorem div_coe_coe (x : ℝ) {y : ℝ} (hy : y ≠ 0) : Ideal.div (x : EReal) (y : EReal) = ((x / y : ℝ) : EReal) := by
  rw [Ideal.div_coe hy, ← EReal.coe_mul]; congr 1; rw [mul_one_div]

/-- The square root of a nonnegative real. -/
theorem sqrt_coe_nonneg {x : ℝ} (hx : 0 ≤ x) : Ideal.sqrt (x : EReal) = ((Real.sqrt x : ℝ) : EReal) := by
  rw [Ideal.sqrt_coe, if_neg (not_lt.mpr hx)]

/-- The logarithm of a positive real. -/
theorem log_coe_pos {x : ℝ} (hx : 0 < x) : Ideal.log (x : EReal) = ((Real.log x : ℝ) : EReal) := by
  rw [Ideal.log_coe, if_neg (not_le.mpr hx)]

/-- The maximum of two reals. -/
theorem max_coe_coe (x y : ℝ) : max (x : EReal) (y : EReal) = ((max x y : ℝ) : EReal) :=
  (EReal.coe_strictMono.monotone.map_max).symm

end Cert.KL.Transfer

end
-- ==== Proof.Payload.lean ====
/-
  The kernel body's arithmetic, one stored value at a time, on REAL contents.

  Every value the body stores is a pure function of the blocks it loads (the generated payload terms).  Here each is
  read at an index when the loaded blocks hold real numbers: the normalised and scaled row block, the two score
  tiles (a row block against a column block, contracted over the 768 features), their exponentials under the common
  shift, the four row accumulators after one more column block, and the two row losses the last column step writes.
-/
import proofs.«418754_j678604833494_3_alg».proof.Proof.Gen.KernelIdeal.Skeleton
import proofs.«418754_j678604833494_3_alg».proof.Proof.Spec
import proofs.«418754_j678604833494_3_alg».proof.Proof.Transfer
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules

noncomputable section

namespace Cert.KL.Payload

open Idealize.ShloMosaic Idealize.ShloMosaic.ValueIdx Cert.KernelIdeal Cert.KernelIdeal.Gen Cert.KL Cert.KL.Consts

/-- A column of `1024` reals, one per row of a row block. -/
abbrev Col : Type := (⟨2, ![1024, 1]⟩ : Shape).Idx → ℝ

/-- A score tile: `1024` rows against `512` columns. -/
abbrev Tile : Type := (⟨2, ![1024, 512]⟩ : Shape).Idx → ℝ

/-- Row `r` of `p` against row `j` of `q`, contracted over the features. -/
def dotR (p : Mat 1024) (q : Mat 512) (r : Fin 1024) (j : Fin 512) : ℝ := ∑ k : Fin 768, p (ix2 r k) * q (ix2 j k)

/-- The kernel's named scale is the reciprocal temperature. -/
theorem named_scale : Named.named (F := Ideal) Cert.KernelIdeal.κ "inv_temperature" (φ := .f32) 0x41200000#32
    = ((invTemp : ℝ) : EReal) :=
  IdealRules.named_const.ideal_named_scalar _ _ _ _ rfl

/-- The index over row `r` of a score tile with `j` inserted on the lane axis is `(r, j)`. -/
theorem lift512 (h : S1024x512.Reduces [1] S1024) (r : Fin 1024) (j : Fin 512) :
    h.lift (ix1 r) j = ix2 r j :=
  funext fun a => match a with
    | ⟨0, _⟩ => Fin.ext rfl
    | ⟨1, _⟩ => Fin.ext rfl

/-- A lane sum of a score tile kept as a column: at row `r`, the sum of that row. -/
theorem rowsum512 (v : FVec Ideal S1024x512 .f32) (h : S1024x512.Reduces [1] S1024) (hφ : FKind.Formats .f32)
    (hacc : (0x00000000#32 : BitVec 32) = FKind.add.neutral .f32 hφ) (hc : S1024.ShapeCasts S1024x1) (r : Fin 1024) :
    shapeCast S1024x1 (multiReduction (F := Ideal) .add [1] S1024 v 0x00000000#32 h hφ hacc) hc (ix2 r 0)
      = ∑ j : Fin 512, v (ix2 r j) := by
  refine (shapeCast_apply _ hc (ix2 r 0) (ix1 r) ?_).trans ?_
  · rw [Shape.rowMajor_val_one, Shape.rowMajor_val_two]
    show r.val = r.val * 1 + 0
    omega
  · refine (Ideal.multiReduction_add_single v _ h hφ hacc (ix1 r)).trans ?_
    exact Finset.sum_congr rfl fun j _ => congrArg v (lift512 h r j)

/-- The index over row `r` of a row block with `k` inserted on the feature axis is `(r, k)`. -/
theorem lift768 (h : S1024x768.Reduces [1] S1024) (r : Fin 1024) (k : Fin 768) :
    h.lift (ix1 r) k = ix2 r k :=
  funext fun a => match a with
    | ⟨0, _⟩ => Fin.ext rfl
    | ⟨1, _⟩ => Fin.ext rfl

/-- A lane sum of a row block kept as a column: at row `r`, the sum of that row. -/
theorem rowsum768 (v : FVec Ideal S1024x768 .f32) (h : S1024x768.Reduces [1] S1024) (hφ : FKind.Formats .f32)
    (hacc : (0x00000000#32 : BitVec 32) = FKind.add.neutral .f32 hφ) (hc : S1024.ShapeCasts S1024x1) (r : Fin 1024) :
    shapeCast S1024x1 (multiReduction (F := Ideal) .add [1] S1024 v 0x00000000#32 h hφ hacc) hc (ix2 r 0)
      = ∑ k : Fin 768, v (ix2 r k) := by
  refine (shapeCast_apply _ hc (ix2 r 0) (ix1 r) ?_).trans ?_
  · rw [Shape.rowMajor_val_one, Shape.rowMajor_val_two]
    show r.val = r.val * 1 + 0
    omega
  · refine (Ideal.multiReduction_add_single v _ h hφ hacc (ix1 r)).trans ?_
    exact Finset.sum_congr rfl fun k _ => congrArg v (lift768 h r k)

/-- A column spread over the features: at `(r, k)`, the column at row `r`. -/
theorem spread_col {α : Type} (c : S1024x1.Idx → α) (h : S1024x1.Broadcasts S1024x768) (r : Fin 1024) (k : Fin 768) :
    broadcastTo S1024x768 c h (ix2 r k) = c (ix2 r 0) := by
  refine broadcastTo_apply c h (ix2 r k) (ix2 r 0) fun ax => ?_
  match ax with
  | ⟨0, _⟩ =>
    show r.val = if (1024 : Nat) = 1 then 0 else r.val
    rw [if_neg (by decide)]
  | ⟨1, _⟩ =>
    show 0 = if (1 : Nat) = 1 then 0 else k.val
    rw [if_pos rfl]

/-- The divisor of row `r`, from the squares of the row block: the larger of the root of their sum and the guard. -/
theorem den_col (x : Mat 1024) (sq : FVec Ideal S1024x768 .f32)
    (hsq : ∀ r k, sq (ix2 r k) = ((x (ix2 r k) * x (ix2 r k) : ℝ) : EReal))
    (h : S1024x768.Reduces [1] S1024) (hφ : FKind.Formats .f32)
    (hacc : (0x00000000#32 : BitVec 32) = FKind.add.neutral .f32 hφ) (hc : S1024.ShapeCasts S1024x1) (r : Fin 1024) :
    maximumf (sqrt (shapeCast S1024x1 (multiReduction (F := Ideal) .add [1] S1024 sq 0x00000000#32 h hφ hacc) hc))
        (broadcast S1024x1 (Scalar.ofBits (F := Ideal) .f32 0x322BCC77#32)) (ix2 r 0)
      = ((den x r : ℝ) : EReal) := by
  refine (maximumf_apply _ _ _).trans ?_
  have e : shapeCast S1024x1 (multiReduction (F := Ideal) .add [1] S1024 sq 0x00000000#32 h hφ hacc) hc (ix2 r 0)
      = ((∑ k : Fin 768, x (ix2 r k) * x (ix2 r k) : ℝ) : EReal) := by
    refine (rowsum768 sq h hφ hacc hc r).trans ?_
    rw [Finset.sum_congr rfl fun k _ => hsq r k, Transfer.coe_sum]
  show max (Ideal.sqrt (shapeCast S1024x1 (multiReduction (F := Ideal) .add [1] S1024 sq 0x00000000#32 h hφ hacc) hc (ix2 r 0)))
      (Ideal.ofBits .f32 0x322BCC77#32) = _
  rw [e, Transfer.sqrt_coe_nonneg (sumsq_nonneg x r), ofBits_eps, Transfer.max_coe_coe]
  rfl

/-- The row block normalised and scaled, from the block and its squares. -/
theorem pay13_core (x : Mat 1024) (sq : FVec Ideal S1024x768 .f32)
    (hsq : ∀ r k, sq (ix2 r k) = ((x (ix2 r k) * x (ix2 r k) : ℝ) : EReal)) (r : Fin 1024) (k : Fin 768) :
    k0_pay13 (F := Ideal) (up x) sq (ix2 r k) = ((nrm x r k * invTemp : ℝ) : EReal) := by
  unfold k0_pay13
  refine (congrFun (shapeCast_self _ _) (ix2 r k)).trans ?_
  refine (truncf_apply (φ := .f32) (ψ := .bf16) _ bitsLt_bf16_f32 (ix2 r k)).trans ?_
  refine (mulf_apply _ _ _).trans ?_
  refine (congrArg₂ (· * ·) ((divf_apply _ _ _).trans (congrArg (Ideal.div (up x (ix2 r k)))
    ((spread_col _ _ r k).trans (den_col x sq hsq _ _ _ _ r)))) named_scale).trans ?_
  show Ideal.div ((x (ix2 r k) : ℝ) : EReal) ((den x r : ℝ) : EReal) * ((invTemp : ℝ) : EReal) = _
  rw [Transfer.div_coe_coe _ (den_pos x r).ne', ← EReal.coe_mul]
  rfl

/-- The row block normalised and scaled (first row operand). -/
theorem pay11_apply (x : Mat 1024) (r : Fin 1024) (k : Fin 768) :
    k0_pay11 (F := Ideal) (up x) (ix2 r k) = ((nrm x r k * invTemp : ℝ) : EReal) :=
  pay13_core x (mulf (F := Ideal) (up x) (up x)) (fun r k => (EReal.coe_mul _ _).symm) r k

/-- The row block normalised and scaled (second row operand: its squares are formed one statement earlier). -/
theorem pay13_apply (x : Mat 1024) (r : Fin 1024) (k : Fin 768) :
    k0_pay13 (F := Ideal) (up x) (k0_pay12 (F := Ideal) (up x)) (ix2 r k) = ((nrm x r k * invTemp : ℝ) : EReal) :=
  pay13_core x (k0_pay12 (F := Ideal) (up x)) (fun r k => (EReal.coe_mul _ _).symm) r k

/-! The matrix product's operand indices: at output `(r, j)` and feature `k` the row operand is read at `(r, k)` and
    the column operand at `(j, k)`. -/

theorem lhs_dot_0 (i : S1024x512.Idx) (q : dot_S1024x768_S512x768_S1024x512_1_1_0_0_n_n.contr.Idx) :
    (dot_S1024x768_S512x768_S1024x512_1_1_0_0_n_n.lhsIdx i q 0).val = (i 0).val := by
  unfold DotDims.lhsIdx
  rw [dif_neg (show ¬(0 : Fin S1024x768.rank) ∈ dot_S1024x768_S512x768_S1024x512_1_1_0_0_n_n.lhsBatch by decide), dif_pos (show (0 : Fin S1024x768.rank) ∈ dot_S1024x768_S512x768_S1024x512_1_1_0_0_n_n.lhsNonContracting by decide)]
  rfl
theorem lhs_dot_1 (i : S1024x512.Idx) (q : dot_S1024x768_S512x768_S1024x512_1_1_0_0_n_n.contr.Idx) :
    (dot_S1024x768_S512x768_S1024x512_1_1_0_0_n_n.lhsIdx i q 1).val = (q ⟨0, by decide⟩).val :=
  dot_S1024x768_S512x768_S1024x512_1_1_0_0_n_n.lhsIdx_val_of_single rfl i q
theorem rhs_dot_0 (i : S1024x512.Idx) (q : dot_S1024x768_S512x768_S1024x512_1_1_0_0_n_n.contr.Idx) :
    (dot_S1024x768_S512x768_S1024x512_1_1_0_0_n_n.rhsIdx i q 0).val = (i 1).val := by
  unfold DotDims.rhsIdx
  rw [dif_neg (show ¬(0 : Fin S512x768.rank) ∈ dot_S1024x768_S512x768_S1024x512_1_1_0_0_n_n.rhsBatch by decide), dif_pos (show (0 : Fin S512x768.rank) ∈ dot_S1024x768_S512x768_S1024x512_1_1_0_0_n_n.rhsNonContracting by decide)]
  rfl
theorem rhs_dot_1 (i : S1024x512.Idx) (q : dot_S1024x768_S512x768_S1024x512_1_1_0_0_n_n.contr.Idx) :
    (dot_S1024x768_S512x768_S1024x512_1_1_0_0_n_n.rhsIdx i q 1).val = (q ⟨0, by decide⟩).val :=
  dot_S1024x768_S512x768_S1024x512_1_1_0_0_n_n.rhsIdx_val_of_single rfl i q

/-- A row block against a column block into a zero accumulator: at `(r, j)` the sum over the features of the products. -/
theorem tile_dot (a : FVec Ideal S1024x768 .bf16) (b : FVec Ideal S512x768 .bf16) (r : Fin 1024) (j : Fin 512) :
    matmul dot_S1024x768_S512x768_S1024x512_1_1_0_0_n_n none a b (constant (F := Ideal) S1024x512 .f32 0x00000000#32) (ix2 r j)
      = ∑ k : Fin 768, a (ix2 r k) * b (ix2 j k) := by
  refine (Ideal.matmul_constant_zero_apply dot_S1024x768_S512x768_S1024x512_1_1_0_0_n_n none a b (ix2 r j)).trans ?_
  rw [← Equiv.sum_comp (contrEquiv1 dot_S1024x768_S512x768_S1024x512_1_1_0_0_n_n 768 rfl rfl).symm]
  refine Finset.sum_congr rfl fun k _ => ?_
  have hk := contrEquiv1_symm_val dot_S1024x768_S512x768_S1024x512_1_1_0_0_n_n 768 rfl rfl k
  have el : dot_S1024x768_S512x768_S1024x512_1_1_0_0_n_n.lhsIdx (ix2 r j) ((contrEquiv1 dot_S1024x768_S512x768_S1024x512_1_1_0_0_n_n 768 rfl rfl).symm k) = ix2 r k := funext fun a => Fin.ext (by
    match a with
    | ⟨0, _⟩ => exact lhs_dot_0 _ _
    | ⟨1, _⟩ => exact (lhs_dot_1 _ _).trans hk)
  have er : dot_S1024x768_S512x768_S1024x512_1_1_0_0_n_n.rhsIdx (ix2 r j) ((contrEquiv1 dot_S1024x768_S512x768_S1024x512_1_1_0_0_n_n 768 rfl rfl).symm k) = ix2 j k := funext fun a => Fin.ext (by
    match a with
    | ⟨0, _⟩ => exact rhs_dot_0 _ _
    | ⟨1, _⟩ => exact (rhs_dot_1 _ _).trans hk)
  rw [el, er]

/-- The same on real contents. -/
theorem tile_dot_real (p : Mat 1024) (q : Mat 512) (h : S512x768.ShapeCasts S512x768) (r : Fin 1024) (j : Fin 512) :
    matmul (F := Ideal) (φ₁ := .bf16) (φ₂ := .bf16) dot_S1024x768_S512x768_S1024x512_1_1_0_0_n_n none (up p)
        (shapeCast S512x768 (up q) h) (constant (F := Ideal) S1024x512 .f32 0x00000000#32) (ix2 r j)
      = ((dotR p q r j : ℝ) : EReal) := by
  refine (congrArg (fun b : FVec Ideal S512x768 .bf16 =>
      matmul (F := Ideal) (φ₁ := .bf16) (φ₂ := .bf16) dot_S1024x768_S512x768_S1024x512_1_1_0_0_n_n none (up p) b (constant (F := Ideal) S1024x512 .f32 0x00000000#32) (ix2 r j))
    (shapeCast_self (up q) h)).trans ?_
  refine (tile_dot (up p) (up q) r j).trans ?_
  show ∑ k : Fin 768, ((p (ix2 r k) : ℝ) : EReal) * ((q (ix2 j k) : ℝ) : EReal) = _
  simp only [← EReal.coe_mul]
  rw [Transfer.coe_sum]
  rfl

/-- A score tile: the matrix product into a zero accumulator. -/
theorem pay14_apply (p : Mat 1024) (q : Mat 512) (r : Fin 1024) (j : Fin 512) :
    k0_pay14 (F := Ideal) (up p) (up q) (ix2 r j) = ((dotR p q r j : ℝ) : EReal) := by
  unfold k0_pay14
  exact tile_dot_real p q _ r j

theorem pay15_apply (p : Mat 1024) (q : Mat 512) (r : Fin 1024) (j : Fin 512) :
    k0_pay15 (F := Ideal) (up p) (up q) (ix2 r j) = ((dotR p q r j : ℝ) : EReal) := by
  unfold k0_pay15
  exact tile_dot_real p q _ r j

/-- The difference of the two score tiles. -/
theorem pay16_apply (p : Mat 1024) (q : Mat 512) (p' : Mat 1024) (q' : Mat 512) (r : Fin 1024) (j : Fin 512) :
    k0_pay16 (F := Ideal) (up p) (up q) (up p') (up q') (ix2 r j) = ((dotR p q r j - dotR p' q' r j : ℝ) : EReal) := by
  unfold k0_pay16
  refine (subf_apply _ _ _).trans ?_
  rw [pay14_apply, pay15_apply, ← EReal.coe_sub]

/-- The exponential of a real score under the common shift. -/
theorem exp_shift (s : EReal) (t : ℝ) (h : s = ((t : ℝ) : EReal)) :
    Ideal.exp (s - Ideal.ofBits .f32 0x41280000#32) = ((Real.exp (t - shiftR) : ℝ) : EReal) := by
  rw [h, ofBits_shift, ← EReal.coe_sub, Ideal.exp_coe]
  rfl

/-- The exponential of a shifted score tile. -/
theorem pay17_apply (p : Mat 1024) (q : Mat 512) (r : Fin 1024) (j : Fin 512) :
    k0_pay17 (F := Ideal) (up p) (up q) (ix2 r j) = ((Real.exp (dotR p q r j - shiftR) : ℝ) : EReal) := by
  unfold k0_pay17
  exact exp_shift _ _ (pay14_apply p q r j)

theorem pay18_apply (p : Mat 1024) (q : Mat 512) (r : Fin 1024) (j : Fin 512) :
    k0_pay18 (F := Ideal) (up p) (up q) (ix2 r j) = ((Real.exp (dotR p q r j - shiftR) : ℝ) : EReal) := by
  unfold k0_pay18
  exact exp_shift _ _ (pay15_apply p q r j)

/-- A column plus the row sums of a tile of reals. -/
theorem col_add_rowsum (l : Col) (f : Fin 512 → ℝ) (v : FVec Ideal S1024x512 .f32) (r : Fin 1024)
    (hv : ∀ j, v (ix2 r j) = ((f j : ℝ) : EReal)) (h : S1024x512.Reduces [1] S1024) (hφ : FKind.Formats .f32)
    (hacc : (0x00000000#32 : BitVec 32) = FKind.add.neutral .f32 hφ) (hc : S1024.ShapeCasts S1024x1)
    (hs : S1024x1.ShapeCasts S1024x1) :
    shapeCast S1024x1 (addf (up l) (shapeCast S1024x1 (multiReduction (F := Ideal) .add [1] S1024 v 0x00000000#32 h hφ hacc) hc)) hs
        (ix2 r 0)
      = ((l (ix2 r 0) + ∑ j : Fin 512, f j : ℝ) : EReal) := by
  refine (congrFun (shapeCast_self _ _) (ix2 r 0)).trans ?_
  refine (addf_apply _ _ _).trans ?_
  refine (congrArg (up l (ix2 r 0) + ·) (rowsum512 _ _ _ _ _ r)).trans ?_
  rw [Finset.sum_congr rfl fun j _ => hv j, Transfer.coe_sum, ← EReal.coe_add]

/-- The normaliser `l_s` after one more column block. -/
theorem pay19_apply (p : Mat 1024) (q : Mat 512) (l : Col) (r : Fin 1024) :
    k0_pay19 (F := Ideal) (up p) (up q) (up l) (ix2 r 0)
      = ((l (ix2 r 0) + ∑ j : Fin 512, Real.exp (dotR p q r j - shiftR) : ℝ) : EReal) := by
  unfold k0_pay19
  exact col_add_rowsum l _ _ r (fun j => pay17_apply p q r j) _ _ _ _ _

/-- The normaliser `l_t` after one more column block. -/
theorem pay20_apply (p : Mat 1024) (q : Mat 512) (l : Col) (r : Fin 1024) :
    k0_pay20 (F := Ideal) (up p) (up q) (up l) (ix2 r 0)
      = ((l (ix2 r 0) + ∑ j : Fin 512, Real.exp (dotR p q r j - shiftR) : ℝ) : EReal) := by
  unfold k0_pay20
  exact col_add_rowsum l _ _ r (fun j => pay18_apply p q r j) _ _ _ _ _

/-- An accumulator that ADDS the row sums of `e * d` over one column block. -/
theorem pay1_apply (d e : Tile) (acc : Col) (r : Fin 1024) :
    k0_pay1 (F := Ideal) (up d) (up e) (up acc) (ix2 r 0)
      = ((acc (ix2 r 0) + ∑ j : Fin 512, e (ix2 r j) * d (ix2 r j) : ℝ) : EReal) := by
  unfold k0_pay1
  refine (congrFun (shapeCast_self _ _) (ix2 r 0)).trans ?_
  refine (addf_apply _ _ _).trans ?_
  refine (congrArg (up acc (ix2 r 0) + ·) (rowsum512 _ _ _ _ _ r)).trans ?_
  show ((acc (ix2 r 0) : ℝ) : EReal) + ∑ j : Fin 512, ((e (ix2 r j) : ℝ) : EReal) * ((d (ix2 r j) : ℝ) : EReal) = _
  simp only [← EReal.coe_mul]
  rw [Transfer.coe_sum, ← EReal.coe_add]

/-- An accumulator that SUBTRACTS the row sums of `e * d` over one column block. -/
theorem pay2_apply (d e : Tile) (acc : Col) (r : Fin 1024) :
    k0_pay2 (F := Ideal) (up d) (up e) (up acc) (ix2 r 0)
      = ((acc (ix2 r 0) - ∑ j : Fin 512, e (ix2 r j) * d (ix2 r j) : ℝ) : EReal) := by
  unfold k0_pay2
  refine (congrFun (shapeCast_self _ _) (ix2 r 0)).trans ?_
  refine (subf_apply _ _ _).trans ?_
  refine (congrArg (up acc (ix2 r 0) - ·) (rowsum512 _ _ _ _ _ r)).trans ?_
  show ((acc (ix2 r 0) : ℝ) : EReal) - ∑ j : Fin 512, ((e (ix2 r j) : ℝ) : EReal) * ((d (ix2 r j) : ℝ) : EReal) = _
  simp only [← EReal.coe_mul]
  rw [Transfer.coe_sum, ← EReal.coe_sub]

/-- The reset value of an accumulator: the zero column. -/
theorem zero_col (h : S1024x1.ShapeCasts S1024x1) :
    shapeCast S1024x1 (broadcast S1024x1 (Scalar.ofBits (F := Ideal) .f32 0x00000000#32)) h = up (fun _ => (0 : ℝ)) := by
  refine (shapeCast_self _ _).trans (funext fun i => ?_)
  show Ideal.ofBits .f32 0x00000000#32 = ((0 : ℝ) : EReal)
  rw [ofBits_zero, EReal.coe_zero]

/-- The four accumulators' reset value. -/
theorem pay7_eq : k0_pay7 (F := Ideal) = up (fun _ => (0 : ℝ)) := zero_col _
theorem pay8_eq : k0_pay8 (F := Ideal) = up (fun _ => (0 : ℝ)) := zero_col _
theorem pay9_eq : k0_pay9 (F := Ideal) = up (fun _ => (0 : ℝ)) := zero_col _
theorem pay10_eq : k0_pay10 (F := Ideal) = up (fun _ => (0 : ℝ)) := zero_col _

/-- The shift plus the logarithm of a positive normaliser. -/
theorem pay3_apply (l : Col) (r : Fin 1024) (hl : 0 < l (ix2 r 0)) :
    k0_pay3 (F := Ideal) (up l) (ix2 r 0) = ((shiftR + Real.log (l (ix2 r 0)) : ℝ) : EReal) := by
  unfold k0_pay3
  show Ideal.ofBits .f32 0x41280000#32 + Ideal.log ((l (ix2 r 0) : ℝ) : EReal) = _
  rw [ofBits_shift, Transfer.log_coe_pos hl, ← EReal.coe_add]
  rfl

theorem pay4_apply (l : Col) (r : Fin 1024) (hl : 0 < l (ix2 r 0)) :
    k0_pay4 (F := Ideal) (up l) (ix2 r 0) = ((shiftR + Real.log (l (ix2 r 0)) : ℝ) : EReal) := by
  unfold k0_pay4
  show Ideal.ofBits .f32 0x41280000#32 + Ideal.log ((l (ix2 r 0) : ℝ) : EReal) = _
  rw [ofBits_shift, Transfer.log_coe_pos hl, ← EReal.coe_add]
  rfl

/-- The first row loss, from the accumulators after the last column block (`ls`, `lt` positive). -/
theorem pay5_apply (ls lt acc : Col) (r : Fin 1024) (hls : 0 < ls (ix2 r 0)) (hlt : 0 < lt (ix2 r 0)) :
    k0_pay5 (F := Ideal) (up ls) (up lt) (up acc) (up lt) (ix2 r 0)
      = ((acc (ix2 r 0) / lt (ix2 r 0)
          + ((shiftR + Real.log (ls (ix2 r 0))) - (shiftR + Real.log (lt (ix2 r 0)))) : ℝ) : EReal) := by
  unfold k0_pay5
  show Ideal.div ((acc (ix2 r 0) : ℝ) : EReal) ((lt (ix2 r 0) : ℝ) : EReal)
      + (k0_pay3 (F := Ideal) (up ls) (ix2 r 0) - k0_pay4 (F := Ideal) (up lt) (ix2 r 0)) = _
  rw [pay3_apply ls r hls, pay4_apply lt r hlt, Transfer.div_coe_coe _ hlt.ne', ← EReal.coe_sub, ← EReal.coe_add]

/-- The second row loss. -/
theorem pay6_apply (ls lt acc : Col) (r : Fin 1024) (hls : 0 < ls (ix2 r 0)) (hlt : 0 < lt (ix2 r 0)) :
    k0_pay6 (F := Ideal) (up ls) (up lt) (up acc) (up ls) (ix2 r 0)
      = ((acc (ix2 r 0) / ls (ix2 r 0)
          + ((shiftR + Real.log (lt (ix2 r 0))) - (shiftR + Real.log (ls (ix2 r 0)))) : ℝ) : EReal) := by
  unfold k0_pay6
  show Ideal.div ((acc (ix2 r 0) : ℝ) : EReal) ((ls (ix2 r 0) : ℝ) : EReal)
      + (k0_pay4 (F := Ideal) (up lt) (ix2 r 0) - k0_pay3 (F := Ideal) (up ls) (ix2 r 0)) = _
  rw [pay4_apply lt r hlt, pay3_apply ls r hls, Transfer.div_coe_coe _ hls.ne', ← EReal.coe_sub, ← EReal.coe_add]

end Cert.KL.Payload

end
-- ==== Proof.Blocks.lean ====
/-
  Where the kernel's blocks sit in the arrays, and what the two column operands hold.

  Grid point `t` is row block `t / 8` and column block `t % 8`.  The row operands' blocks at `t` are rows
  `1024 (t / 8) + r` of the first and third arguments; the column operands' blocks are rows `512 (t % 8) + q` of the two
  arrays the host prepared before the launch: the second and fourth arguments with every row normalised.
-/
import proofs.«418754_j678604833494_3_alg».proof.Proof.Gen.KernelIdeal.Frame.Runs
import proofs.«418754_j678604833494_3_alg».proof.Proof.Spec
import proofs.«418754_j678604833494_3_alg».proof.Proof.Transfer
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

set_option maxRecDepth 16384

noncomputable section

namespace Cert.KernelIdeal.Gen

open Idealize.ShloMosaic Idealize.ShloMosaic.TcCoe Idealize.ShloMosaic.ValueIdx Idealize.SL.Sem Cert.KL

/-- The global row of row `r` of the row block at grid point `t`. -/
def rowOf (t : Fin cfg0.N) (r : Fin 1024) : Fin 4096 :=
  ⟨1024 * (t.val / 8) + r.val, by have := t.isLt; have h : cfg0.N = 32 := N_0; have := r.isLt; omega⟩

/-- The global column (a row of a column operand) of row `q` of the column block at grid point `t`. -/
def colOf (t : Fin cfg0.N) (q : Fin 512) : Fin 4096 :=
  ⟨512 * (t.val % 8) + q.val, by have := q.isLt; omega⟩

section AnyInstance

variable {F : FTy → Type} [FloatOps F] [Named F]
variable (m : (ℓ : Loc nD τ sig) → Buf (Elt F) ℓ)

/-- The four input blocks at a point, at their literal types. -/
abbrev blk0 (c : Dev nD) (t : Fin cfg0.N) : Vec F S1024x768 .f32 := iblk m c 0 t
abbrev blk1 (c : Dev nD) (t : Fin cfg0.N) : Vec F S512x768 .bf16 := iblk m c 1 t
abbrev blk2 (c : Dev nD) (t : Fin cfg0.N) : Vec F S1024x768 .f32 := iblk m c 2 t
abbrev blk3 (c : Dev nD) (t : Fin cfg0.N) : Vec F S512x768 .bf16 := iblk m c 3 t

/-- The four index maps over the grid: the row operands' block index is `(t / 8, 0)`, the column operands' is
    `(t % 8, 0)`. -/
theorem index_facts : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = 0
    ∧ win0_3.index t (0 : Fin 2) = t.val % 8 ∧ win0_3.index t (1 : Fin 2) = 0 :=
  (by decide +kernel : ∀ t : Fin grid0.N, _)

theorem blk0_apply (c : Dev nD) (t : Fin cfg0.N) (r : Fin 1024) (k : Fin 768) :
    blk0 m c t (ix2 r k) = V m c main_arg0 (ix2 (rowOf t r) k) := by
  obtain ⟨e0, e1, -⟩ := index_facts t
  show V m c main_arg0 (((cfg0.win 0).blk t).view.emb (ix2 r k)) = V m c main_arg0 (ix2 (rowOf t r) k)
  refine congrArg _ ?_
  funext a; apply Fin.ext
  match a with
  | ⟨0, _⟩ => show win0_0.index t (0 : Fin 2) * 1024 + 1 * r.val = 1024 * (t.val / 8) + r.val; omega
  | ⟨1, _⟩ => show win0_0.index t (1 : Fin 2) * 768 + 1 * k.val = k.val; omega

theorem blk1_apply (c : Dev nD) (t : Fin cfg0.N) (q : Fin 512) (k : Fin 768) :
    blk1 m c t (ix2 q k) = V m c main_v8 (ix2 (colOf t q) k) := by
  obtain ⟨-, -, e0, e1, -⟩ := index_facts t
  show V m c main_v8 (((cfg0.win 1).blk t).view.emb (ix2 q k)) = V m c main_v8 (ix2 (colOf t q) k)
  refine congrArg _ ?_
  funext a; apply Fin.ext
  match a with
  | ⟨0, _⟩ => show win0_1.index t (0 : Fin 2) * 512 + 1 * q.val = 512 * (t.val % 8) + q.val; omega
  | ⟨1, _⟩ => show win0_1.index t (1 : Fin 2) * 768 + 1 * k.val = k.val; omega

theorem blk2_apply (c : Dev nD) (t : Fin cfg0.N) (r : Fin 1024) (k : Fin 768) :
    blk2 m c t (ix2 r k) = V m c main_arg2 (ix2 (rowOf t r) k) := by
  obtain ⟨-, -, -, -, e0, e1, -⟩ := index_facts t
  show V m c main_arg2 (((cfg0.win 2).blk t).view.emb (ix2 r k)) = V m c main_arg2 (ix2 (rowOf t r) k)
  refine congrArg _ ?_
  funext a; apply Fin.ext
  match a with
  | ⟨0, _⟩ => show win0_2.index t (0 : Fin 2) * 1024 + 1 * r.val = 1024 * (t.val / 8) + r.val; omega
  | ⟨1, _⟩ => show win0_2.index t (1 : Fin 2) * 768 + 1 * k.val = k.val; omega

theorem blk3_apply (c : Dev nD) (t : Fin cfg0.N) (q : Fin 512) (k : Fin 768) :
    blk3 m c t (ix2 q k) = V m c main_v17 (ix2 (colOf t q) k) := by
  obtain ⟨-, -, -, -, -, -, e0, e1⟩ := index_facts t
  show V m c main_v17 (((cfg0.win 3).blk t).view.emb (ix2 q k)) = V m c main_v17 (ix2 (colOf t q) k)
  refine congrArg _ ?_
  funext a; apply Fin.ext
  match a with
  | ⟨0, _⟩ => show win0_3.index t (0 : Fin 2) * 512 + 1 * q.val = 512 * (t.val % 8) + q.val; omega
  | ⟨1, _⟩ => show win0_3.index t (1 : Fin 2) * 768 + 1 * k.val = k.val; omega

end AnyInstance

section HostTerm

variable {F : FTy → Type} [FloatOps F] [Named F]

/-- What the host makes of a column operand before the launch: every row divided by the larger of its Euclidean
    norm and `ε`, the quotient converted to the narrow format. -/
def rowNormalised (x : (⟨S4096x768, .f32⟩ : BufTy).Contents (Elt F)) : (⟨S4096x768, .bf16⟩ : BufTy).Contents (Elt F) :=
  truncf .bf16
    (Host.divf x
      (broadcastInDim S4096x768 ![0, 1] bcast_S4096x1_S4096x768_0_1
        (maximumf
          (Host.sqrt (broadcastInDim S4096x1 ![0] bcast_S4096_S4096x1_0
            (Host.reduceAdd (mulf x x) (constant S_ .f32 0x00000000#32 : (⟨S_, .f32⟩ : BufTy).Contents (Elt F)) reducesTo_S4096x768_S4096_d1 h_S_)))
          (broadcastInDim S4096x1 ![] bcast_S_S4096x1 (constant S_ .f32 0x322BCC77#32 : (⟨S_, .f32⟩ : BufTy).Contents (Elt F))))))
    bitsLt_bf16_f32

variable (m : (ℓ : Loc nD τ sig) → Buf (Elt F) ℓ)

/-- The first column operand's array is the second argument row-normalised. -/
theorem V_v8_eq (c : Dev nD) : V m c main_v8 = rowNormalised (F := F) (m ((c : Thread nD τ).loc main_arg1)) := by
  show StableHlo.after hostOps0 (fun b => m (c, b)) (Proc.devRef .tc main_v8) = _
  after_results
  rfl

/-- The second column operand's array is the fourth argument row-normalised. -/
theorem V_v17_eq (c : Dev nD) : V m c main_v17 = rowNormalised (F := F) (m ((c : Thread nD τ).loc main_arg3)) := by
  show StableHlo.after hostOps0 (fun b => m (c, b)) (Proc.devRef .tc main_v17) = _
  after_results
  rfl

end HostTerm

section AtIdeal

/-- A column of row values read at a row. -/
theorem bcast_col_apply {α : Type} (y : S4096.Idx → α) (j : Fin 4096) :
    broadcastInDim S4096x1 ![0] bcast_S4096_S4096x1_0 y (ix2 j (0 : Fin 1)) = y (ix1 j) :=
  broadcastInDim_apply _ bcast_S4096_S4096x1_0 y (ix2 j (0 : Fin 1)) (ix1 j) (fun a => match a with
    | ⟨0, _⟩ => by show j.val = if (4096 : Nat) = 1 then 0 else j.val; rw [if_neg (by decide)])

/-- A scalar spread over a column. -/
theorem bcast_scalar_apply {α : Type} (y : S_.Idx → α) (i : S4096x1.Idx) :
    broadcastInDim S4096x1 ![] bcast_S_S4096x1 y i = y ix0 :=
  broadcastInDim_apply _ bcast_S_S4096x1 y i ix0 (fun a => a.elim0)

/-- A column spread along the rows. -/
theorem bcast_row_apply {α : Type} (y : S4096x1.Idx → α) (j : Fin 4096) (k : Fin 768) :
    broadcastInDim S4096x768 ![0, 1] bcast_S4096x1_S4096x768_0_1 y (ix2 j k) = y (ix2 j (0 : Fin 1)) :=
  broadcastInDim_apply _ bcast_S4096x1_S4096x768_0_1 y (ix2 j k) (ix2 j (0 : Fin 1)) (fun a => match a with
    | ⟨0, _⟩ => by show j.val = if (4096 : Nat) = 1 then 0 else j.val; rw [if_neg (by decide)]
    | ⟨1, _⟩ => by show 0 = if (1 : Nat) = 1 then 0 else k.val; rw [if_pos rfl])

/-- The host's sum of the squares of row `j` of a real array is the real sum. -/
theorem sumsq_apply (b : Mat 4096) (j : Fin 4096) :
    Host.reduceAdd (F := Ideal) (mulf (up b) (up b))
      (constant (F := Ideal) S_ .f32 0x00000000#32) reducesTo_S4096x768_S4096_d1 h_S_ (ix1 j)
      = ((∑ k : Fin 768, b (ix2 j k) * b (ix2 j k) : ℝ) : EReal) := by
  simp only [Host.reduceAdd, Ideal.hostReduceAdd_def]
  rw [Ideal.hostReduceAdd_single reducesTo_S4096x768_S4096_d1 (by decide)]
  have h0 : (constant (F := Ideal) S_ .f32 0x00000000#32) (Shape.Idx.first h_S_) = 0 := Consts.ofBits_zero
  rw [h0, zero_add, ← Transfer.coe_sum]
  refine Finset.sum_congr rfl fun k _ => ?_
  rw [EReal.coe_mul]
  exact congrArg (fun i => ((b i : ℝ) : EReal) * ((b i : ℝ) : EReal))
    (funext fun a => Fin.ext (by match a with | ⟨0, _⟩ => rfl | ⟨1, _⟩ => rfl))

/-- The row-normalised array of a real array holds `nrm`: the sum of squares, its root, the guard, the quotient,
    all on real arguments. -/
theorem rowNormalised_apply (b : Mat 4096) (j : Fin 4096) (k : Fin 768) :
    rowNormalised (F := Ideal) (up b) (ix2 j k) = ((nrm b j k : ℝ) : EReal) := by
  unfold rowNormalised
  show Ideal.div (up b (ix2 j k)) (broadcastInDim (s := S4096x1) S4096x768 ![0, 1] bcast_S4096x1_S4096x768_0_1 _ (ix2 j k)) = _
  rw [bcast_row_apply]
  show Ideal.div (up b (ix2 j k)) (max (Ideal.sqrt (broadcastInDim (s := S4096) S4096x1 ![0] bcast_S4096_S4096x1_0 _ (ix2 j (0 : Fin 1))))
    (broadcastInDim (s := S_) S4096x1 ![] bcast_S_S4096x1 _ (ix2 j (0 : Fin 1)))) = _
  rw [bcast_col_apply, bcast_scalar_apply, sumsq_apply]
  show Ideal.div ((b (ix2 j k) : ℝ) : EReal) (max (Ideal.sqrt _) (Ideal.ofBits .f32 0x322BCC77#32)) = _
  have hd : max (Real.sqrt (∑ k : Fin 768, b (ix2 j k) * b (ix2 j k))) Consts.epsR ≠ 0 := (den_pos b j).ne'
  rw [Transfer.sqrt_coe_nonneg (sumsq_nonneg b j), Consts.ofBits_eps, Transfer.max_coe_coe, Transfer.div_coe_coe _ hd]
  rfl

variable (m : (ℓ : Loc nD τ sig) → Buf (Elt Ideal) ℓ)

/-- The four argument arrays of core `c` hold real numbers. -/
structure RealArgs (c : Dev nD) where
  a : Mat 4096
  b : Mat 4096
  z : Mat 4096
  w : Mat 4096
  h0 : m ((c.tc : Thread nD τ).loc main_arg0) = up a
  h1 : m ((c.tc : Thread nD τ).loc main_arg1) = up b
  h2 : m ((c.tc : Thread nD τ).loc main_arg2) = up z
  h3 : m ((c.tc : Thread nD τ).loc main_arg3) = up w

variable {m}

/-- The first row operand's array is the first argument. -/
theorem V_arg0_apply {c : Dev nD} (R : RealArgs m c) (i : Fin 4096) (k : Fin 768) :
    V m c main_arg0 (ix2 i k) = ((R.a (ix2 i k) : ℝ) : EReal) :=
  congrFun ((V_main_arg0 m c).trans R.h0) (ix2 i k)

/-- The second row operand's array is the third argument. -/
theorem V_arg2_apply {c : Dev nD} (R : RealArgs m c) (i : Fin 4096) (k : Fin 768) :
    V m c main_arg2 (ix2 i k) = ((R.z (ix2 i k) : ℝ) : EReal) :=
  congrFun ((V_main_arg2 m c).trans R.h2) (ix2 i k)

/-- The first column operand: the second argument with every row normalised (the host's work before the launch). -/
theorem V_v8_apply {c : Dev nD} (R : RealArgs m c) (j : Fin 4096) (k : Fin 768) :
    V m c main_v8 (ix2 j k) = ((nrm R.b j k : ℝ) : EReal) := by
  rw [V_v8_eq, R.h1]
  exact rowNormalised_apply R.b j k

/-- The second column operand: the fourth argument with every row normalised. -/
theorem V_v17_apply {c : Dev nD} (R : RealArgs m c) (j : Fin 4096) (k : Fin 768) :
    V m c main_v17 (ix2 j k) = ((nrm R.w j k : ℝ) : EReal) := by
  rw [V_v17_eq, R.h3]
  exact rowNormalised_apply R.w j k

end AtIdeal

end Cert.KernelIdeal.Gen

end
-- ==== Proof.Induct.lean ====
/-
  What the kernel's scratch and output buffers hold after each grid point, on real inputs.

  After the column step `b = t % 8` of row block `t / 8`, row `r` of the four accumulators holds the sums over the
  first `512 (b + 1)` columns of `exp (s - c)`, `exp (t - c)`, `-exp (t - c) (s - t)` and `exp (s - c) (s - t)`, where `s`
  and `t` are the two score rows of global row `1024 (t / 8) + r`; the two caches hold that row block of the row
  operands, normalised and scaled.  By induction on the point: the first column step resets, the others add a block.
  After the last column step the two output buffers hold the two row losses.
-/
import proofs.«418754_j678604833494_3_alg».proof.Proof.Pieces
import proofs.«418754_j678604833494_3_alg».proof.Proof.Payload
import proofs.«418754_j678604833494_3_alg».proof.Proof.Blocks
import proofs.«418754_j678604833494_3_alg».proof.Proof.Gen.KernelIdeal.Frame

set_option maxRecDepth 16384

noncomputable section

namespace Cert.KernelIdeal.Gen

open Idealize.ShloMosaic Idealize.ShloMosaic.TcCoe Idealize.ShloMosaic.ValueIdx Idealize.SL.Sem Cert.KL Cert.KL.Payload

variable {m : (ℓ : Loc nD τ sig) → Buf (Elt Ideal) ℓ}

/-- The first score row of the global row under row `r` of the block at `t`. -/
def sRow {c : Dev nD} (R : RealArgs m c) (t : Fin cfg0.N) (r : Fin 1024) : Fin 4096 → ℝ := kscore R.a R.b (rowOf t r)

/-- The second score row. -/
def tRow {c : Dev nD} (R : RealArgs m c) (t : Fin cfg0.N) (r : Fin 1024) : Fin 4096 → ℝ := kscore R.z R.w (rowOf t r)

/-! ## The blocks as real arrays -/

/-- The rows of `x` under the row block at `t`. -/
def rowsAt (x : Mat 4096) (t : Fin cfg0.N) : Mat 1024 := fun idx => x (ix2 (rowOf t (idx 0)) (idx 1))

/-- The rows of `y`, normalised, under the column block at `t`. -/
def colsAt (y : Mat 4096) (t : Fin cfg0.N) : Mat 512 := fun idx => nrm y (colOf t (idx 0)) (idx 1)

/-- The rows of `x` under the row block at `t`, normalised and scaled. -/
def scaledAt (x : Mat 4096) (t : Fin cfg0.N) : Mat 1024 := fun idx => nrm x (rowOf t (idx 0)) (idx 1) * invTemp

theorem blk0_eq {c : Dev nD} (R : RealArgs m c) (t : Fin cfg0.N) : blk0 m c t = up (rowsAt R.a t) := by
  funext idx
  obtain ⟨r, k, rfl⟩ : ∃ (r : Fin 1024) (k : Fin 768), idx = ix2 r k := ⟨idx 0, idx 1, eq_ix2 idx⟩
  rw [blk0_apply, V_arg0_apply R]; rfl

theorem blk2_eq {c : Dev nD} (R : RealArgs m c) (t : Fin cfg0.N) : blk2 m c t = up (rowsAt R.z t) := by
  funext idx
  obtain ⟨r, k, rfl⟩ : ∃ (r : Fin 1024) (k : Fin 768), idx = ix2 r k := ⟨idx 0, idx 1, eq_ix2 idx⟩
  rw [blk2_apply, V_arg2_apply R]; rfl

theorem blk1_eq {c : Dev nD} (R : RealArgs m c) (t : Fin cfg0.N) : blk1 m c t = up (colsAt R.b t) := by
  funext idx
  obtain ⟨q, k, rfl⟩ : ∃ (q : Fin 512) (k : Fin 768), idx = ix2 q k := ⟨idx 0, idx 1, eq_ix2 idx⟩
  rw [blk1_apply, V_v8_apply R]; rfl

theorem blk3_eq {c : Dev nD} (R : RealArgs m c) (t : Fin cfg0.N) : blk3 m c t = up (colsAt R.w t) := by
  funext idx
  obtain ⟨q, k, rfl⟩ : ∃ (q : Fin 512) (k : Fin 768), idx = ix2 q k := ⟨idx 0, idx 1, eq_ix2 idx⟩
  rw [blk3_apply, V_v17_apply R]; rfl

/-- Normalising a block of rows is normalising the rows. -/
theorem nrm_rowsAt (x : Mat 4096) (t : Fin cfg0.N) (r : Fin 1024) (k : Fin 768) :
    nrm (rowsAt x t) r k = nrm x (rowOf t r) k := rfl

/-- The cached row operand: the block normalised and scaled. -/
theorem pay11_rows (x : Mat 4096) (t : Fin cfg0.N) : k0_pay11 (F := Ideal) (up (rowsAt x t)) = up (scaledAt x t) := by
  funext idx
  obtain ⟨r, k, rfl⟩ : ∃ (r : Fin 1024) (k : Fin 768), idx = ix2 r k := ⟨idx 0, idx 1, eq_ix2 idx⟩
  rw [pay11_apply, nrm_rowsAt]; rfl

theorem pay13_rows (x : Mat 4096) (t : Fin cfg0.N) :
    k0_pay13 (F := Ideal) (up (rowsAt x t)) (k0_pay12 (F := Ideal) (up (rowsAt x t))) = up (scaledAt x t) := by
  funext idx
  obtain ⟨r, k, rfl⟩ : ∃ (r : Fin 1024) (k : Fin 768), idx = ix2 r k := ⟨idx 0, idx 1, eq_ix2 idx⟩
  rw [pay13_apply, nrm_rowsAt]; rfl

/-- A tile entry is the score of its global row and column. -/
theorem dot_scaled (x y : Mat 4096) (t : Fin cfg0.N) (r : Fin 1024) (q : Fin 512) :
    dotR (scaledAt x t) (colsAt y t) r q = kscore x y (rowOf t r) (colOf t q) := rfl

/-! ## The accumulators after a point, as columns of reals -/

/-- `∑ exp (s - c)` over the columns done after the step at `t`. -/
def accLs {c : Dev nD} (R : RealArgs m c) (t : Fin cfg0.N) : Col := fun idx =>
  pre (512 * (t.val % 8) + 512) (fun j => Real.exp (sRow R t (idx 0) j - shiftR))

/-- `∑ exp (t - c)` over the columns done. -/
def accLt {c : Dev nD} (R : RealArgs m c) (t : Fin cfg0.N) : Col := fun idx =>
  pre (512 * (t.val % 8) + 512) (fun j => Real.exp (tRow R t (idx 0) j - shiftR))

/-- `-∑ exp (t - c) (s - t)` over the columns done. -/
def accS2T {c : Dev nD} (R : RealArgs m c) (t : Fin cfg0.N) : Col := fun idx =>
  -(pre (512 * (t.val % 8) + 512) (fun j => Real.exp (tRow R t (idx 0) j - shiftR) * (sRow R t (idx 0) j - tRow R t (idx 0) j)))

/-- `∑ exp (s - c) (s - t)` over the columns done. -/
def accT2S {c : Dev nD} (R : RealArgs m c) (t : Fin cfg0.N) : Col := fun idx =>
  pre (512 * (t.val % 8) + 512) (fun j => Real.exp (sRow R t (idx 0) j - shiftR) * (sRow R t (idx 0) j - tRow R t (idx 0) j))

/-- Every index of a one-column array is `(r, 0)`. -/
theorem col_idx (idx : (⟨2, ![1024, 1]⟩ : Shape).Idx) : ∃ r : Fin 1024, idx = ix2 r 0 :=
  ⟨idx 0, by
    funext a
    match a with
    | ⟨0, _⟩ => rfl
    | ⟨1, _⟩ => exact Fin.ext (by have := idx2_lt1 idx; show (idx 1).val = 0; omega)⟩

/-- Every index of a tile is `(r, q)`. -/
theorem tile_idx (idx : (⟨2, ![1024, 512]⟩ : Shape).Idx) : ∃ (r : Fin 1024) (q : Fin 512), idx = ix2 r q :=
  ⟨idx 0, idx 1, eq_ix2 idx⟩

/-- The four accumulators before the step at `t` hold the sums over the columns of the blocks before `t`'s. -/
structure Before {c : Dev nD} (R : RealArgs m c) (t : Fin cfg0.N) (l0 l1 a2 a3 : Col) : Prop where
  ls : ∀ r : Fin 1024, l0 (ix2 r 0) = pre (512 * (t.val % 8)) (fun j => Real.exp (sRow R t r j - shiftR))
  lt : ∀ r : Fin 1024, l1 (ix2 r 0) = pre (512 * (t.val % 8)) (fun j => Real.exp (tRow R t r j - shiftR))
  s2t : ∀ r : Fin 1024, a2 (ix2 r 0)
      = -(pre (512 * (t.val % 8)) (fun j => Real.exp (tRow R t r j - shiftR) * (sRow R t r j - tRow R t r j)))
  t2s : ∀ r : Fin 1024, a3 (ix2 r 0)
      = pre (512 * (t.val % 8)) (fun j => Real.exp (sRow R t r j - shiftR) * (sRow R t r j - tRow R t r j))

/-- One more block of columns: the block's sum is over the global columns `colOf t q`. -/
theorem pre_step (t : Fin cfg0.N) (f : Fin 4096 → ℝ) :
    pre (512 * (t.val % 8) + 512) f = pre (512 * (t.val % 8)) f + ∑ q : Fin 512, f (colOf t q) :=
  pre_block (t.val % 8) (Nat.mod_lt _ (by norm_num)) f

/-- The two score tiles of the step at `t`. -/
theorem tile_s {c : Dev nD} (R : RealArgs m c) (t : Fin cfg0.N) (r : Fin 1024) (q : Fin 512) :
    dotR (scaledAt R.a t) (colsAt R.b t) r q = sRow R t r (colOf t q) := rfl

theorem tile_t {c : Dev nD} (R : RealArgs m c) (t : Fin cfg0.N) (r : Fin 1024) (q : Fin 512) :
    dotR (scaledAt R.z t) (colsAt R.w t) r q = tRow R t r (colOf t q) := rfl

/-- The difference tile and the two exponential tiles, as tiles of reals. -/
def diffT {c : Dev nD} (R : RealArgs m c) (t : Fin cfg0.N) : Tile := fun idx =>
  dotR (scaledAt R.a t) (colsAt R.b t) (idx 0) (idx 1) - dotR (scaledAt R.z t) (colsAt R.w t) (idx 0) (idx 1)

def expS {c : Dev nD} (R : RealArgs m c) (t : Fin cfg0.N) : Tile := fun idx =>
  Real.exp (dotR (scaledAt R.a t) (colsAt R.b t) (idx 0) (idx 1) - shiftR)

def expT {c : Dev nD} (R : RealArgs m c) (t : Fin cfg0.N) : Tile := fun idx =>
  Real.exp (dotR (scaledAt R.z t) (colsAt R.w t) (idx 0) (idx 1) - shiftR)

theorem pay16_tile {c : Dev nD} (R : RealArgs m c) (t : Fin cfg0.N) :
    k0_pay16 (F := Ideal) (up (scaledAt R.a t)) (up (colsAt R.b t)) (up (scaledAt R.z t)) (up (colsAt R.w t)) = up (diffT R t) := by
  funext idx
  obtain ⟨r, q, rfl⟩ := tile_idx idx
  rw [pay16_apply]; rfl

theorem pay17_tile {c : Dev nD} (R : RealArgs m c) (t : Fin cfg0.N) :
    k0_pay17 (F := Ideal) (up (scaledAt R.a t)) (up (colsAt R.b t)) = up (expS R t) := by
  funext idx
  obtain ⟨r, q, rfl⟩ := tile_idx idx
  rw [pay17_apply]; rfl

theorem pay18_tile {c : Dev nD} (R : RealArgs m c) (t : Fin cfg0.N) :
    k0_pay18 (F := Ideal) (up (scaledAt R.z t)) (up (colsAt R.w t)) = up (expT R t) := by
  funext idx
  obtain ⟨r, q, rfl⟩ := tile_idx idx
  rw [pay18_apply]; rfl

/-! ## One column step on the accumulators -/

theorem new_ls {c : Dev nD} (R : RealArgs m c) (t : Fin cfg0.N) {l0 l1 a2 a3 : Col} (hb : Before R t l0 l1 a2 a3) :
    k0_pay19 (F := Ideal) (up (scaledAt R.a t)) (up (colsAt R.b t)) (up l0) = up (accLs R t) := by
  funext idx
  obtain ⟨r, rfl⟩ := col_idx idx
  rw [pay19_apply]
  refine congrArg (fun x : ℝ => (x : EReal)) ?_
  show _ = pre (512 * (t.val % 8) + 512) (fun j => Real.exp (sRow R t r j - shiftR))
  rw [pre_step, hb.ls r]
  rfl

theorem new_lt {c : Dev nD} (R : RealArgs m c) (t : Fin cfg0.N) {l0 l1 a2 a3 : Col} (hb : Before R t l0 l1 a2 a3) :
    k0_pay20 (F := Ideal) (up (scaledAt R.z t)) (up (colsAt R.w t)) (up l1) = up (accLt R t) := by
  funext idx
  obtain ⟨r, rfl⟩ := col_idx idx
  rw [pay20_apply]
  refine congrArg (fun x : ℝ => (x : EReal)) ?_
  show _ = pre (512 * (t.val % 8) + 512) (fun j => Real.exp (tRow R t r j - shiftR))
  rw [pre_step, hb.lt r]
  rfl

theorem new_s2t {c : Dev nD} (R : RealArgs m c) (t : Fin cfg0.N) {l0 l1 a2 a3 : Col} (hb : Before R t l0 l1 a2 a3) :
    k0_pay2 (F := Ideal) (up (diffT R t)) (up (expT R t)) (up a2) = up (accS2T R t) := by
  funext idx
  obtain ⟨r, rfl⟩ := col_idx idx
  rw [pay2_apply]
  refine congrArg (fun x : ℝ => (x : EReal)) ?_
  show _ = -(pre (512 * (t.val % 8) + 512) (fun j => Real.exp (tRow R t r j - shiftR) * (sRow R t r j - tRow R t r j)))
  rw [pre_step, hb.s2t r, neg_add, sub_eq_add_neg]
  rfl

theorem new_t2s {c : Dev nD} (R : RealArgs m c) (t : Fin cfg0.N) {l0 l1 a2 a3 : Col} (hb : Before R t l0 l1 a2 a3) :
    k0_pay1 (F := Ideal) (up (diffT R t)) (up (expS R t)) (up a3) = up (accT2S R t) := by
  funext idx
  obtain ⟨r, rfl⟩ := col_idx idx
  rw [pay1_apply]
  refine congrArg (fun x : ℝ => (x : EReal)) ?_
  show _ = pre (512 * (t.val % 8) + 512) (fun j => Real.exp (sRow R t r j - shiftR) * (sRow R t r j - tRow R t r j))
  rw [pre_step, hb.t2s r]
  rfl

/-! ## The accumulators before a step -/

/-- At a row block's first column step the accumulators have just been reset. -/
theorem before_first {c : Dev nD} (R : RealArgs m c) (t : Fin cfg0.N) (h0 : t.val % 8 = 0) :
    Before R t (fun _ => 0) (fun _ => 0) (fun _ => 0) (fun _ => 0) := by
  have e : 512 * (t.val % 8) = 0 := by rw [h0]
  refine ⟨fun r => ?_, fun r => ?_, fun r => ?_, fun r => ?_⟩ <;> rw [e, pre_zero] <;> simp

/-- The point before `t` in the same row block works on the same rows. -/
theorem rowOf_prev (t t' : Fin cfg0.N) (hv : t'.val = t.val - 1) (h0 : ¬t.val % 8 = 0) (r : Fin 1024) :
    rowOf t' r = rowOf t r := by
  apply Fin.ext
  show 1024 * (t'.val / 8) + r.val = 1024 * (t.val / 8) + r.val
  omega

/-- At any other column step they hold what the step before left. -/
theorem before_next {c : Dev nD} (R : RealArgs m c) (t t' : Fin cfg0.N) (hv : t'.val = t.val - 1) (h0 : ¬t.val % 8 = 0) :
    Before R t (accLs R t') (accLt R t') (accS2T R t') (accT2S R t') := by
  have e : 512 * (t'.val % 8) + 512 = 512 * (t.val % 8) := by omega
  refine ⟨fun r => ?_, fun r => ?_, fun r => ?_, fun r => ?_⟩
  · show pre (512 * (t'.val % 8) + 512) (fun j => Real.exp (sRow R t' r j - shiftR)) = _
    rw [e]; unfold sRow; rw [rowOf_prev t t' hv h0 r]
  · show pre (512 * (t'.val % 8) + 512) (fun j => Real.exp (tRow R t' r j - shiftR)) = _
    rw [e]; unfold tRow; rw [rowOf_prev t t' hv h0 r]
  · show -(pre (512 * (t'.val % 8) + 512) (fun j => Real.exp (tRow R t' r j - shiftR) * (sRow R t' r j - tRow R t' r j))) = _
    rw [e]; unfold sRow tRow; rw [rowOf_prev t t' hv h0 r]
  · show pre (512 * (t'.val % 8) + 512) (fun j => Real.exp (sRow R t' r j - shiftR) * (sRow R t' r j - tRow R t' r j)) = _
    rw [e]; unfold sRow tRow; rw [rowOf_prev t t' hv h0 r]

theorem scaledAt_prev (x : Mat 4096) (t t' : Fin cfg0.N) (hv : t'.val = t.val - 1) (h0 : ¬t.val % 8 = 0) :
    scaledAt x t' = scaledAt x t := by
  funext idx
  exact congrArg (fun i : Fin 4096 => nrm x i (idx 1) * invTemp) (rowOf_prev t t' hv h0 (idx 0))

/-! ## One step of each control case, on real contents -/

section Cases

variable {c : Dev nD} {i : grid0.Coords}
  {arg2 : Memref sig .tc .vmem S1024x768 .f32} {harg2 : arg2.IsWhole} {arg3 : Memref sig .tc .vmem S512x768 .bf16} {harg3 : arg3.IsWhole}
  {arg4 : Memref sig .tc .vmem S1024x768 .f32} {harg4 : arg4.IsWhole} {arg5 : Memref sig .tc .vmem S512x768 .bf16} {harg5 : arg5.IsWhole}
  {arg6 : Memref sig .tc .vmem S1024x1 .f32} {harg6 : arg6.IsWhole} {arg7 : Memref sig .tc .vmem S1024x1 .f32} {harg7 : arg7.IsWhole}
  {arg8 : Memref sig .tc .vmem S1024x1 .f32} {harg8 : arg8.IsWhole} {arg9 : Memref sig .tc .vmem S1024x1 .f32} {harg9 : arg9.IsWhole}
  {arg10 : Memref sig .tc .vmem S1024x1 .f32} {harg10 : arg10.IsWhole} {arg11 : Memref sig .tc .vmem S1024x1 .f32} {harg11 : arg11.IsWhole}
  {arg12 : Memref sig .tc .vmem S1024x768 .bf16} {harg12 : arg12.IsWhole} {arg13 : Memref sig .tc .vmem S1024x768 .bf16} {harg13 : arg13.IsWhole}
  {x0 : Vec Ideal S1024x768 .f32} {x1 : Vec Ideal S512x768 .bf16} {x2 : Vec Ideal S1024x768 .f32} {x3 : Vec Ideal S512x768 .bf16}

/-- The first column step: reset, cache the row operands, add the first block. -/
theorem stepA (R : RealArgs m c) (t : Fin cfg0.N) (ht : t.val % 8 = 0) {hc0 : cond0_0 i} {hc1 : ¬cond0_1 i}
    (e0 : x0 = up (rowsAt R.a t)) (e1 : x1 = up (colsAt R.b t)) (e2 : x2 = up (rowsAt R.z t)) (e3 : x3 = up (colsAt R.w t)) :
    sout0_A_0 c i arg2 harg2 arg3 harg3 arg4 harg4 arg5 harg5 arg6 harg6 arg7 harg7 arg8 harg8 arg9 harg9 arg10 harg10 arg11 harg11 arg12 harg12 arg13 harg13 hc0 hc1 x0 x1 x2 x3 = up (accLs R t)
    ∧ sout0_A_1 c i arg2 harg2 arg3 harg3 arg4 harg4 arg5 harg5 arg6 harg6 arg7 harg7 arg8 harg8 arg9 harg9 arg10 harg10 arg11 harg11 arg12 harg12 arg13 harg13 hc0 hc1 x0 x1 x2 x3 = up (accLt R t)
    ∧ sout0_A_2 c i arg2 harg2 arg3 harg3 arg4 harg4 arg5 harg5 arg6 harg6 arg7 harg7 arg8 harg8 arg9 harg9 arg10 harg10 arg11 harg11 arg12 harg12 arg13 harg13 hc0 hc1 x0 x1 x2 x3 = up (accS2T R t)
    ∧ sout0_A_3 c i arg2 harg2 arg3 harg3 arg4 harg4 arg5 harg5 arg6 harg6 arg7 harg7 arg8 harg8 arg9 harg9 arg10 harg10 arg11 harg11 arg12 harg12 arg13 harg13 hc0 hc1 x0 x1 x2 x3 = up (accT2S R t)
    ∧ sout0_A_4 c i arg2 harg2 arg3 harg3 arg4 harg4 arg5 harg5 arg6 harg6 arg7 harg7 arg8 harg8 arg9 harg9 arg10 harg10 arg11 harg11 arg12 harg12 arg13 harg13 hc0 hc1 x0 x1 x2 x3 = up (scaledAt R.a t)
    ∧ sout0_A_5 c i arg2 harg2 arg3 harg3 arg4 harg4 arg5 harg5 arg6 harg6 arg7 harg7 arg8 harg8 arg9 harg9 arg10 harg10 arg11 harg11 arg12 harg12 arg13 harg13 hc0 hc1 x0 x1 x2 x3 = up (scaledAt R.z t) := by
  subst e0 e1 e2 e3
  have hb := before_first R t ht
  rw [sout0_A_0_eq, sout0_A_1_eq, sout0_A_2_eq, sout0_A_3_eq, sout0_A_4_eq, sout0_A_5_eq,
    pay11_rows, pay13_rows, pay16_tile, pay17_tile, pay18_tile, pay7_eq, pay8_eq, pay9_eq, pay10_eq]
  exact ⟨new_ls R t hb, new_lt R t hb, new_s2t R t hb, new_t2s R t hb, rfl, rfl⟩

variable {xs0 xs1 xs2 xs3 : Vec Ideal S1024x1 .f32} {xs4 xs5 : Vec Ideal S1024x768 .bf16}

/-- A middle column step: one more block added to what the step before left. -/
theorem stepB (R : RealArgs m c) (t : Fin cfg0.N) {l0 l1 a2 a3 : Col} (hb : Before R t l0 l1 a2 a3)
    {hc0 : ¬cond0_0 i} {hc1 : ¬cond0_1 i}
    (e1 : x1 = up (colsAt R.b t)) (e3 : x3 = up (colsAt R.w t))
    (s0 : xs0 = up l0) (s1 : xs1 = up l1) (s2 : xs2 = up a2) (s3 : xs3 = up a3)
    (s4 : xs4 = up (scaledAt R.a t)) (s5 : xs5 = up (scaledAt R.z t)) :
    sout0_B_0 c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5 = up (accLs R t)
    ∧ sout0_B_1 c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5 = up (accLt R t)
    ∧ sout0_B_2 c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5 = up (accS2T R t)
    ∧ sout0_B_3 c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5 = up (accT2S R t)
    ∧ sout0_B_4 c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5 = up (scaledAt R.a t)
    ∧ sout0_B_5 c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5 = up (scaledAt R.z t) := by
  subst e1 e3 s0 s1 s2 s3 s4 s5
  rw [sout0_B_0_eq, sout0_B_1_eq, sout0_B_2_eq, sout0_B_3_eq, pay16_tile, pay17_tile, pay18_tile]
  exact ⟨new_ls R t hb, new_lt R t hb, new_s2t R t hb, new_t2s R t hb, rfl, rfl⟩

/-- The last column step: the last block added, and the two row losses formed from the accumulators it leaves. -/
theorem stepC (R : RealArgs m c) (t : Fin cfg0.N) {l0 l1 a2 a3 : Col} (hb : Before R t l0 l1 a2 a3)
    {hc0 : ¬cond0_0 i} {hc1 : cond0_1 i}
    (e1 : x1 = up (colsAt R.b t)) (e3 : x3 = up (colsAt R.w t))
    (s0 : xs0 = up l0) (s1 : xs1 = up l1) (s2 : xs2 = up a2) (s3 : xs3 = up a3)
    (s4 : xs4 = up (scaledAt R.a t)) (s5 : xs5 = up (scaledAt R.z t)) :
    (out0_C_4 c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5
        = k0_pay5 (F := Ideal) (up (accLs R t)) (up (accLt R t)) (up (accS2T R t)) (up (accLt R t))
      ∧ out0_C_5 c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5
        = k0_pay6 (F := Ideal) (up (accLs R t)) (up (accLt R t)) (up (accT2S R t)) (up (accLs R t)))
    ∧ sout0_C_0 c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5 = up (accLs R t)
    ∧ sout0_C_1 c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5 = up (accLt R t)
    ∧ sout0_C_2 c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5 = up (accS2T R t)
    ∧ sout0_C_3 c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5 = up (accT2S R t)
    ∧ sout0_C_4 c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5 = up (scaledAt R.a t)
    ∧ sout0_C_5 c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5 = up (scaledAt R.z t) := by
  subst e1 e3 s0 s1 s2 s3 s4 s5
  rw [out0_C_4_eq, out0_C_5_eq, sout0_C_0_eq, sout0_C_1_eq, sout0_C_2_eq, sout0_C_3_eq, pay16_tile, pay17_tile, pay18_tile,
    new_ls R t hb, new_lt R t hb, new_s2t R t hb, new_t2s R t hb]
  exact ⟨⟨rfl, rfl⟩, rfl, rfl, rfl, rfl, rfl, rfl⟩

end Cases

/-! ## The induction over the grid's points -/

/-- The scratch after point `t`. -/
def Inv {c : Dev nD} (R : RealArgs m c) (t : Fin cfg0.N) : Prop :=
  (outsAt0 m c t.val t.isLt).2.2.1 = up (accLs R t)
  ∧ (outsAt0 m c t.val t.isLt).2.2.2.1 = up (accLt R t)
  ∧ (outsAt0 m c t.val t.isLt).2.2.2.2.1 = up (accS2T R t)
  ∧ (outsAt0 m c t.val t.isLt).2.2.2.2.2.1 = up (accT2S R t)
  ∧ (outsAt0 m c t.val t.isLt).2.2.2.2.2.2.1 = up (scaledAt R.a t)
  ∧ (outsAt0 m c t.val t.isLt).2.2.2.2.2.2.2 = up (scaledAt R.z t)

theorem inv_all {c : Dev nD} (R : RealArgs m c) : ∀ (n : ℕ) (hn : n < cfg0.N), Inv R ⟨n, hn⟩ := by
  intro n
  induction n using Nat.strong_induction_on with
  | _ n ih =>
    intro hn
    have hN : n < 32 := lt_of_lt_of_eq hn (show cfg0.N = 32 from N_0)
    by_cases h0 : n % 8 = 0
    · have h1 : ¬n % 8 = 7 := by omega
      unfold Inv
      rw [outsAt0_A m c ⟨n, hn⟩ h0 h1]
      dsimp only
      exact stepA R ⟨n, hn⟩ h0 (blk0_eq R _) (blk1_eq R _) (blk2_eq R _) (blk3_eq R _)
    · have hp : n - 1 < cfg0.N := Nat.lt_of_le_of_lt (Nat.sub_le _ _) hn
      obtain ⟨p0, p1, p2, p3, p4, p5⟩ := ih (n - 1) (by omega) hp
      have hb := before_next R ⟨n, hn⟩ ⟨n - 1, hp⟩ rfl h0
      have q4 := p4.trans (congrArg up (scaledAt_prev R.a ⟨n, hn⟩ ⟨n - 1, hp⟩ rfl h0))
      have q5 := p5.trans (congrArg up (scaledAt_prev R.z ⟨n, hn⟩ ⟨n - 1, hp⟩ rfl h0))
      by_cases h1 : n % 8 = 7
      · unfold Inv
        rw [outsAt0_C m c ⟨n, hn⟩ h0 h1]
        dsimp only
        exact (stepC R ⟨n, hn⟩ hb (blk1_eq R _) (blk3_eq R _) p0 p1 p2 p3 q4 q5).2
      · unfold Inv
        rw [outsAt0_B m c ⟨n, hn⟩ h0 h1]
        dsimp only
        exact stepB R ⟨n, hn⟩ hb (blk1_eq R _) (blk3_eq R _) p0 p1 p2 p3 q4 q5

/-- The two output buffers after a row block's last column step, as the body's arithmetic of the accumulators. -/
theorem outs_last {c : Dev nD} (R : RealArgs m c) (t : Fin cfg0.N) (h7 : t.val % 8 = 7) :
    (outsAt0 m c t.val t.isLt).1
        = k0_pay5 (F := Ideal) (up (accLs R t)) (up (accLt R t)) (up (accS2T R t)) (up (accLt R t))
    ∧ (outsAt0 m c t.val t.isLt).2.1
        = k0_pay6 (F := Ideal) (up (accLs R t)) (up (accLt R t)) (up (accT2S R t)) (up (accLs R t)) := by
  obtain ⟨n, hn⟩ := t
  have h0 : ¬n % 8 = 0 := by have : n % 8 = 7 := h7; omega
  have hp : n - 1 < cfg0.N := Nat.lt_of_le_of_lt (Nat.sub_le _ _) hn
  obtain ⟨p0, p1, p2, p3, p4, p5⟩ := inv_all R (n - 1) hp
  have hb := before_next R ⟨n, hn⟩ ⟨n - 1, hp⟩ rfl h0
  have q4 := p4.trans (congrArg up (scaledAt_prev R.a ⟨n, hn⟩ ⟨n - 1, hp⟩ rfl h0))
  have q5 := p5.trans (congrArg up (scaledAt_prev R.z ⟨n, hn⟩ ⟨n - 1, hp⟩ rfl h0))
  rw [outsAt0_C m c ⟨n, hn⟩ h0 h7]
  dsimp only
  exact (stepC R ⟨n, hn⟩ hb (blk1_eq R _) (blk3_eq R _) p0 p1 p2 p3 q4 q5).1

/-- After the last column step the accumulators range over all the columns. -/
theorem all_cols (t : Fin cfg0.N) (h7 : t.val % 8 = 7) (f : Fin 4096 → ℝ) :
    pre (512 * (t.val % 8) + 512) f = ∑ j, f j := by
  rw [h7]; exact pre_all f

/-- After a row block's last column step the first output buffer holds the first row loss, -/
theorem out4_last {c : Dev nD} (R : RealArgs m c) (t : Fin cfg0.N) (h7 : t.val % 8 = 7) (r : Fin 1024) :
    (outsAt0 m c t.val t.isLt).1 (ix2 r 0) = ((rowK (sRow R t r) (tRow R t r) : ℝ) : EReal) := by
  have hls : 0 < accLs R t (ix2 r 0) := by
    show 0 < pre (512 * (t.val % 8) + 512) (fun j => Real.exp (sRow R t r j - shiftR))
    rw [all_cols t h7]; exact sum_exp_pos _ _
  have hlt : 0 < accLt R t (ix2 r 0) := by
    show 0 < pre (512 * (t.val % 8) + 512) (fun j => Real.exp (tRow R t r j - shiftR))
    rw [all_cols t h7]; exact sum_exp_pos _ _
  rw [(outs_last R t h7).1, pay5_apply _ _ _ r hls hlt]
  refine congrArg (fun x : ℝ => (x : EReal)) ?_
  show -(pre (512 * (t.val % 8) + 512) (fun j => Real.exp (tRow R t r j - shiftR) * (sRow R t r j - tRow R t r j)))
        / pre (512 * (t.val % 8) + 512) (fun j => Real.exp (tRow R t r j - shiftR))
      + ((shiftR + Real.log (pre (512 * (t.val % 8) + 512) (fun j => Real.exp (sRow R t r j - shiftR))))
          - (shiftR + Real.log (pre (512 * (t.val % 8) + 512) (fun j => Real.exp (tRow R t r j - shiftR))))) = _
  simp only [all_cols t h7]
  rfl

/-- and the second the second. -/
theorem out5_last {c : Dev nD} (R : RealArgs m c) (t : Fin cfg0.N) (h7 : t.val % 8 = 7) (r : Fin 1024) :
    (outsAt0 m c t.val t.isLt).2.1 (ix2 r 0) = ((rowK (tRow R t r) (sRow R t r) : ℝ) : EReal) := by
  have hls : 0 < accLs R t (ix2 r 0) := by
    show 0 < pre (512 * (t.val % 8) + 512) (fun j => Real.exp (sRow R t r j - shiftR))
    rw [all_cols t h7]; exact sum_exp_pos _ _
  have hlt : 0 < accLt R t (ix2 r 0) := by
    show 0 < pre (512 * (t.val % 8) + 512) (fun j => Real.exp (tRow R t r j - shiftR))
    rw [all_cols t h7]; exact sum_exp_pos _ _
  rw [(outs_last R t h7).2, pay6_apply _ _ _ r hls hlt]
  refine congrArg (fun x : ℝ => (x : EReal)) ?_
  show pre (512 * (t.val % 8) + 512) (fun j => Real.exp (sRow R t r j - shiftR) * (sRow R t r j - tRow R t r j))
        / pre (512 * (t.val % 8) + 512) (fun j => Real.exp (sRow R t r j - shiftR))
      + ((shiftR + Real.log (pre (512 * (t.val % 8) + 512) (fun j => Real.exp (tRow R t r j - shiftR))))
          - (shiftR + Real.log (pre (512 * (t.val % 8) + 512) (fun j => Real.exp (sRow R t r j - shiftR))))) = _
  simp only [all_cols t h7]
  exact rowK_swap (sRow R t r) (tRow R t r)

end Cert.KernelIdeal.Gen

end
-- ==== Proof.Final.lean ====
/-
  The kernel's two results on real inputs.

  The two output arrays are written back one row block at a time, after each row block's last column step; every row
  of each is covered, so each array ends holding the row losses of all 4096 rows.  The host then sums each array and
  divides by the number of entries of a score matrix.
-/
import proofs.«418754_j678604833494_3_alg».proof.Proof.Induct
import proofs.«418754_j678604833494_3_alg».proof.Proof.Gen.KernelIdeal.Frame
import Idealize.ShloMosaic.Lib.StableHlo.Run
import Idealize.ShloMosaic.Lib.ReduceAll
import Idealize.ShloMosaic.Lib.IdealHost

set_option maxRecDepth 16384

noncomputable section

namespace Cert.KernelIdeal.Gen

open Idealize.ShloMosaic Idealize.ShloMosaic.TcCoe Idealize.ShloMosaic.ValueIdx Idealize.SL.Sem Cert.KL Cert.KL.Payload

variable {m : (ℓ : Loc nD τ sig) → Buf (Elt Ideal) ℓ}

/-! ## The first output array -/

/-- The block of the first output array at grid point `t` is row block `t / 8`, and its one column: decided over
    the grid. -/
theorem idx_facts4 : ∀ t : Fin cfg0.N, win0_4.index t (0 : Fin 2) = t.val / 8 ∧ win0_4.index t (1 : Fin 2) = 0 :=
  (by decide +kernel : ∀ t : Fin grid0.N, _)

/-- What the first output array ends holding: row `i`'s first loss. -/
def G4 {c : Dev nD} (R : RealArgs m c) : S4096x1.Idx → EReal := fun i =>
  ((rowK (kscore R.a R.b ⟨(i 0).val, idx2_lt0 i⟩) (kscore R.z R.w ⟨(i 0).val, idx2_lt0 i⟩) : ℝ) : EReal)

/-- What a point after a row block's last column step writes back is its block of the row losses. -/
theorem flushed4_eq {c : Dev nD} (R : RealArgs m c) (t : Fin cfg0.N) (hf : (cfg0.win 4).flush t = true) :
    (dats m 0 c).flushed 4 t = ((cfg0.win 4).blk t).view.read (Elt Ideal) (G4 R) := by
  have h7 : t.val % 8 = 7 := (flush0_4 t).1 hf
  show (cfg0.win 4).cut (grid0.coords t) ((dats m 0 c).after 4 t) = _
  rw [after0_4]
  funext y
  obtain ⟨r, q, rfl⟩ : ∃ (r : Fin 1024) (q : Fin 1), y = ix2 r q := ⟨y 0, y 1, eq_ix2 y⟩
  obtain rfl : q = 0 := Subsingleton.elim _ _
  show (outsAt0 m c t.val t.isLt).1 (ix2 r 0) = G4 R (((cfg0.win 4).blk t).view.emb (ix2 r 0))
  rw [out4_last R t h7 r]
  have he : (⟨((((cfg0.win 4).blk t).view.emb (ix2 r 0)) 0).val, idx2_lt0 _⟩ : Fin 4096) = rowOf t r := by
    apply Fin.ext
    show win0_4.index t (0 : Fin 2) * 1024 + 1 * r.val = 1024 * (t.val / 8) + r.val
    rw [(idx_facts4 t).1]; omega
  exact congrArg (fun j => ((rowK (kscore R.a R.b j) (kscore R.z R.w j) : ℝ) : EReal)) he.symm

/-- An index of the array is in point `t`'s block iff each coordinate is in the block's range on its axis. -/
theorem mem_blk4 (t : Fin cfg0.N) (i : S4096x1.Idx) :
    i ∈ ((cfg0.win 4).blk t).view.set ↔ ∀ a : Fin 2, win0_4.index t a * S1024x1.size a ≤ (i a).val ∧ (i a).val < win0_4.index t a * S1024x1.size a + S1024x1.size a := by
  show i ∈ ((View.whole main_v18_0).slice (win0_4.rect t)).set ↔ _
  rw [View.set_slice_whole, Rect.mem_set_unit]
  exact Iff.rfl

/-- Every row is in the block of the last column step of its row block. -/
theorem cover4 (i : S4096x1.Idx) : ∃ t : Fin cfg0.N, (cfg0.win 4).flush t = true ∧ i ∈ ((cfg0.win 4).blk t).view.set := by
  have hi0 : (i 0).val < 4096 := idx2_lt0 i
  have hi1 : (i 1).val < 1 := idx2_lt1 i
  have hN : cfg0.N = 32 := N_0
  let t : Fin cfg0.N := ⟨8 * ((i 0).val / 1024) + 7, by omega⟩
  have ht : t.val = 8 * ((i 0).val / 1024) + 7 := rfl
  refine ⟨t, (flush0_4 t).2 (by omega), ?_⟩
  rw [mem_blk4]
  obtain ⟨e0, e1⟩ := idx_facts4 t
  intro a
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 1 ≤ (i 1).val ∧ (i 1).val < win0_4.index t (1 : Fin 2) * 1 + 1; omega

/-- The first output array after the run: every row's first loss. -/
theorem arr4_final {c : Dev nD} (R : RealArgs m c) (i : Fin 4096) :
    (dats m 0 c).arrAt 4 cfg0.N (ix2 i 0) = ((rowK (kscore R.a R.b i) (kscore R.z R.w i) : ℝ) : EReal) := by
  exact congrFun ((dats m 0 c).arrAt_eq_of_cover 4 (G4 R) (flushed4_eq R) cover4) (ix2 i 0)

/-! ## The second output array -/

/-- The block of the second output array at grid point `t` is row block `t / 8`, and its one column: decided over
    the grid. -/
theorem idx_facts5 : ∀ t : Fin cfg0.N, win0_5.index t (0 : Fin 2) = t.val / 8 ∧ win0_5.index t (1 : Fin 2) = 0 :=
  (by decide +kernel : ∀ t : Fin grid0.N, _)

/-- What the second output array ends holding: row `i`'s second loss. -/
def G5 {c : Dev nD} (R : RealArgs m c) : S4096x1.Idx → EReal := fun i =>
  ((rowK (kscore R.z R.w ⟨(i 0).val, idx2_lt0 i⟩) (kscore R.a R.b ⟨(i 0).val, idx2_lt0 i⟩) : ℝ) : EReal)

/-- What a point after a row block's last column step writes back is its block of the row losses. -/
theorem flushed5_eq {c : Dev nD} (R : RealArgs m c) (t : Fin cfg0.N) (hf : (cfg0.win 5).flush t = true) :
    (dats m 0 c).flushed 5 t = ((cfg0.win 5).blk t).view.read (Elt Ideal) (G5 R) := by
  have h7 : t.val % 8 = 7 := (flush0_5 t).1 hf
  show (cfg0.win 5).cut (grid0.coords t) ((dats m 0 c).after 5 t) = _
  rw [after0_5]
  funext y
  obtain ⟨r, q, rfl⟩ : ∃ (r : Fin 1024) (q : Fin 1), y = ix2 r q := ⟨y 0, y 1, eq_ix2 y⟩
  obtain rfl : q = 0 := Subsingleton.elim _ _
  show (outsAt0 m c t.val t.isLt).2.1 (ix2 r 0) = G5 R (((cfg0.win 5).blk t).view.emb (ix2 r 0))
  rw [out5_last R t h7 r]
  have he : (⟨((((cfg0.win 5).blk t).view.emb (ix2 r 0)) 0).val, idx2_lt0 _⟩ : Fin 4096) = rowOf t r := by
    apply Fin.ext
    show win0_5.index t (0 : Fin 2) * 1024 + 1 * r.val = 1024 * (t.val / 8) + r.val
    rw [(idx_facts5 t).1]; omega
  exact congrArg (fun j => ((rowK (kscore R.z R.w j) (kscore R.a R.b j) : ℝ) : EReal)) he.symm

/-- An index of the array is in point `t`'s block iff each coordinate is in the block's range on its axis. -/
theorem mem_blk5 (t : Fin cfg0.N) (i : S4096x1.Idx) :
    i ∈ ((cfg0.win 5).blk t).view.set ↔ ∀ a : Fin 2, win0_5.index t a * S1024x1.size a ≤ (i a).val ∧ (i a).val < win0_5.index t a * S1024x1.size a + S1024x1.size a := by
  show i ∈ ((View.whole main_v18_1).slice (win0_5.rect t)).set ↔ _
  rw [View.set_slice_whole, Rect.mem_set_unit]
  exact Iff.rfl

/-- Every row is in the block of the last column step of its row block. -/
theorem cover5 (i : S4096x1.Idx) : ∃ t : Fin cfg0.N, (cfg0.win 5).flush t = true ∧ i ∈ ((cfg0.win 5).blk t).view.set := by
  have hi0 : (i 0).val < 4096 := idx2_lt0 i
  have hi1 : (i 1).val < 1 := idx2_lt1 i
  have hN : cfg0.N = 32 := N_0
  let t : Fin cfg0.N := ⟨8 * ((i 0).val / 1024) + 7, by omega⟩
  have ht : t.val = 8 * ((i 0).val / 1024) + 7 := rfl
  refine ⟨t, (flush0_5 t).2 (by omega), ?_⟩
  rw [mem_blk5]
  obtain ⟨e0, e1⟩ := idx_facts5 t
  intro a
  match a with
  | ⟨0, _⟩ => show win0_5.index t (0 : Fin 2) * 1024 ≤ (i 0).val ∧ (i 0).val < win0_5.index t (0 : Fin 2) * 1024 + 1024; omega
  | ⟨1, _⟩ => show win0_5.index t (1 : Fin 2) * 1 ≤ (i 1).val ∧ (i 1).val < win0_5.index t (1 : Fin 2) * 1 + 1; omega

/-- The second output array after the run: every row's second loss. -/
theorem arr5_final {c : Dev nD} (R : RealArgs m c) (i : Fin 4096) :
    (dats m 0 c).arrAt 5 cfg0.N (ix2 i 0) = ((rowK (kscore R.z R.w i) (kscore R.a R.b i) : ℝ) : EReal) := by
  exact congrFun ((dats m 0 c).arrAt_eq_of_cover 5 (G5 R) (flushed5_eq R) cover5) (ix2 i 0)

/-! ## The host's mean -/

/-- The host's sum of a column of reals from zero, divided by the number of entries of a score matrix, is the real
    quotient. -/
theorem mean_of_rows (x : FVec Ideal S4096x1 .f32) (f : Fin 4096 → ℝ)
    (hx : ∀ i : Fin 4096, x (ix2 i 0) = ((f i : ℝ) : EReal)) :
    Host.divf (F := Ideal)
        (Host.reduceAdd (F := Ideal) x (constant (F := Ideal) S_ .f32 0x00000000#32) reducesTo_S4096x1_S_d0_1 h_S_)
        (constant (F := Ideal) S_ .f32 0x4B800000#32)
      = fun _ => (((∑ i, f i) / 16777216 : ℝ) : EReal) := by
  funext j
  rw [hostDivf_apply, hostReduceAdd_apply, constant_apply, constant_apply,
    Ideal.hostReduceAdd_total reducesTo_S4096x1_S_d0_1 (fun b => b.elim0), sum_idx2]
  have hs : (∑ a : Fin 4096, ∑ b : Fin 1, x (ix2 a b)) = (((∑ i, f i : ℝ)) : EReal) :=
    (Finset.sum_congr rfl fun a _ => by rw [Fin.sum_univ_one]; exact hx a).trans (Transfer.coe_sum Finset.univ f)
  rw [hs, Consts.ofBits_zero, zero_add, Consts.ofBits_count]
  exact Transfer.div_coe_coe _ (by norm_num)

/-- The first result: the mean of the first output array. -/
theorem tail_v20 {c : Dev nD} (R : RealArgs m c) :
    Pipeline.afterTail₀ cfgs (dats m) 0 (V0 m) [hostOps1] c main_v20
      = fun _ => ((lossK R.a R.b R.z R.w : ℝ) : EReal) := by
  unfold Pipeline.afterTail₀
  show StableHlo.after hostOps1 _ (Proc.devRef .tc main_v20) = _
  after_results
  have e : Pipeline.withArrays (cfgs 0).spec c (V0 m c) (fun w => (dats m 0 c).arrAt w (cfgs 0).N)
      (Proc.devRef .tc main_v18_0) = (dats m 0 c).arrAt 4 cfg0.N :=
    Pipeline.withArrays_arr spec0 launch0.win.arr_inj c _ _ 4
  rw [e]
  exact mean_of_rows _ _ (arr4_final R)

/-- The second result: the mean of the second output array. -/
theorem tail_v22 {c : Dev nD} (R : RealArgs m c) :
    Pipeline.afterTail₀ cfgs (dats m) 0 (V0 m) [hostOps1] c main_v22
      = fun _ => ((lossK R.z R.w R.a R.b : ℝ) : EReal) := by
  unfold Pipeline.afterTail₀
  show StableHlo.after hostOps1 _ (Proc.devRef .tc main_v22) = _
  after_results
  have e : Pipeline.withArrays (cfgs 0).spec c (V0 m c) (fun w => (dats m 0 c).arrAt w (cfgs 0).N)
      (Proc.devRef .tc main_v18_1) = (dats m 0 c).arrAt 5 cfg0.N :=
    Pipeline.withArrays_arr spec0 launch0.win.arr_inj c _ _ 5
  rw [e]
  exact mean_of_rows _ _ (arr5_final R)

/-- The kernel's run on real inputs: the two results are the two mean losses, the arguments unchanged. -/
theorem kernel_run (ρ : Dev nD → PrngReg) (R : (c : Dev nD) → RealArgs m c) :
    θ_run defs (onTc (τ := τ) (main (F := Ideal))) ⟨m, fun _ => 0, ρ⟩ (fun r => ∀ c : Dev nD,
      r.2.mem ((c.tc : Thread nD τ).loc main_v20) = (fun _ => ((lossK (R c).a (R c).b (R c).z (R c).w : ℝ) : EReal))
      ∧ r.2.mem ((c.tc : Thread nD τ).loc main_v22) = (fun _ => ((lossK (R c).z (R c).w (R c).a (R c).b : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  exact (θ_run defs _ _).mono (fun _ h c => ⟨
      ((h c).2 main_v20 (Pipeline.mem_restRefs_of main_v20 (by decide) (by decide))).trans (tail_v20 (R c)),
      ((h c).2 main_v22 (Pipeline.mem_restRefs_of main_v22 (by decide) (by decide))).trans (tail_v22 (R c)),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      ((h c).1 2).trans (((dats m 0 c).arrAt_in 2 rfl _).trans ((A_eq m c 2).trans (V_main_arg2 m c))),
      (((h c).2 main_arg3 (Pipeline.mem_restRefs_of main_arg3 (by decide) (by decide))).trans (W_main_arg3 m (dats m) c))⟩)
    (run_main m ρ)

end Cert.KernelIdeal.Gen

end
-- ==== Proof.RefSoft.lean ====
/-
  The reference's two softmax matrices on real inputs.

  Rows normalised, the cosine similarities formed by one contraction over the 768 features and divided by the
  temperature, each row shifted by its maximum (the maximum of 4096 reals is a real), exponentiated, and divided by the
  row's sum: entry `(i, j)` is the softmax of score row `i` at `j`, shifted by some real `M i`.
-/
import proofs.«418754_j678604833494_3_alg».proof.Proof.Gen.ReferenceIdeal.Read
import proofs.«418754_j678604833494_3_alg».proof.Proof.Spec
import proofs.«418754_j678604833494_3_alg».proof.Proof.Transfer
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.BitExact.Laws

set_option maxRecDepth 16384

noncomputable section

namespace Cert.ReferenceIdeal.RefValue

open Idealize.ShloMosaic Idealize.ShloMosaic.TcCoe Idealize.ShloMosaic.ValueIdx Idealize.SL.Sem Cert.KL
open Cert.ReferenceIdeal Cert.ReferenceIdeal.Gen Cert.ReferenceIdeal.Read

open Cert.KL.Consts Cert.KL.Transfer

namespace Soft

/-- A row entry divided by the row's guarded norm, in the extended reals, is the normalised entry. -/
theorem nrm_val (a : Mat 4096) (i : Fin 4096) (k : Fin 768) :
    Ideal.div ((a (ix2 i k) : ℝ) : EReal)
        (max (Ideal.sqrt ((∑ k' : Fin 768, a (ix2 i k') * a (ix2 i k') : ℝ) : EReal)) ((epsR : ℝ) : EReal))
      = ((nrm a i k : ℝ) : EReal) := by
  rw [sqrt_coe_nonneg (sumsq_nonneg a i), max_coe_coe]
  exact div_coe_coe _ (den_pos a i).ne'

/-- The sum of squares of row `i`. -/
theorem v1_val (a : Mat 4096) (i : Fin 4096) :
    val_main_v1 (F := Ideal) (up a) (ix1 i) = ((∑ k : Fin 768, a (ix2 i k) * a (ix2 i k) : ℝ) : EReal) := by
  rw [val_main_v1_apply, val_main_cst_apply, Ideal.ofBits_def, ofBits_zero, zero_add, ← coe_sum]
  refine Finset.sum_congr rfl fun k _ => ?_
  have e : idx_main_v1 (ix1 i) k = ix2 i k := funext fun c => Fin.ext (by match c with | ⟨0, _⟩ => rfl | ⟨1, _⟩ => rfl)
  rw [val_main_v0_apply, Ideal.mulf_def, e, EReal.coe_mul]

/-- Row `i`, normalised: each entry over `max ‖row‖ ε`. -/
theorem v7_val (a : Mat 4096) (i : Fin 4096) (k : Fin 768) :
    val_main_v7 (F := Ideal) (up a) (ix2 i k) = ((nrm a i k : ℝ) : EReal) := by
  have e : idx_main_v2 (idx_main_v6 (ix2 i k)) = ix1 i := funext fun c => Fin.ext (by match c with | ⟨0, _⟩ => rfl)
  rw [val_main_v7_apply, val_main_v6_apply, val_main_v5_apply, val_main_v3_apply, val_main_v2_apply, val_main_v4_apply,
    val_main_cst_0_apply, e, v1_val, Ideal.hostDivf_def, Ideal.maximumf_def, Ideal.hostUnary_sqrt_def, Ideal.ofBits_def,
    ofBits_eps]
  exact nrm_val a i k

/-- The second argument's rows are normalised by the very operations that normalise the first's. -/
theorem v15_eq_v7 {F : FTy → Type} [FloatOps F] (x : (⟨S4096x768, .f32⟩ : BufTy).Contents (Elt F)) :
    val_main_v15 (F := F) x = val_main_v7 (F := F) x := rfl

/-- The normalised second argument, transposed. -/
theorem v16_val (b : Mat 4096) (k : Fin 768) (j : Fin 4096) :
    val_main_v16 (F := Ideal) (up b) (ix2 k j) = ((nrm b j k : ℝ) : EReal) := by
  have e : idx_main_v16 (ix2 k j) = ix2 j k := funext fun c => Fin.ext (by match c with | ⟨0, _⟩ => rfl | ⟨1, _⟩ => rfl)
  rw [val_main_v16_apply, e, v15_eq_v7, v7_val]

/-- The cosine similarities: one contraction over the 768 features. -/
theorem v17_val (a b : Mat 4096) (i j : Fin 4096) :
    val_main_v17 (F := Ideal) (up a) (up b) (ix2 i j) = ((∑ k : Fin 768, nrm a i k * nrm b j k : ℝ) : EReal) := by
  rw [val_main_v17_apply, ← coe_sum]
  refine Finset.sum_congr rfl fun k _ => ?_
  have el : lidx_main_v17 (ix2 i j) k = ix2 i k := funext fun c => Fin.ext (by match c with | ⟨0, _⟩ => rfl | ⟨1, _⟩ => rfl)
  have er : ridx_main_v17 (ix2 i j) k = ix2 k j := funext fun c => Fin.ext (by match c with | ⟨0, _⟩ => rfl | ⟨1, _⟩ => rfl)
  rw [el, er, v7_val, v16_val, EReal.coe_mul]

/-- The scores: the similarities over the temperature. -/
theorem v19_val (a b : Mat 4096) (i j : Fin 4096) :
    val_main_v19 (F := Ideal) (up a) (up b) (ix2 i j) = ((rscore a b i j : ℝ) : EReal) := by
  rw [val_main_v19_apply, val_main_v18_apply, val_main_cst_3_apply, v17_val, Ideal.hostDivf_def, Ideal.ofBits_def,
    ofBits_temp]
  exact div_coe_coe _ tempR_pos.ne'

/-- The fold of `max` from `⊥` over a finite family of reals, one of them at least, is a real: it is below `⊤` because
    every member is, and above `⊥` because it is at least one member. -/
theorem fold_max_real {ι : Type*} (s : Finset ι) (f : ι → EReal) (x0 : ι) (h0 : x0 ∈ s)
    (hf : ∀ x ∈ s, ∃ r : ℝ, f x = (r : EReal)) :
    s.fold max ⊥ f = (((s.fold max ⊥ f).toReal : ℝ) : EReal) := by
  have htop : s.fold max ⊥ f ≠ ⊤ := by
    apply ne_of_lt
    rw [Finset.fold_max_lt]
    exact ⟨bot_lt_top, fun x hx => by obtain ⟨r, hr⟩ := hf x hx; rw [hr]; exact EReal.coe_lt_top r⟩
  have hbot : s.fold max ⊥ f ≠ ⊥ := by
    obtain ⟨r, hr⟩ := hf x0 h0
    have h : (r : EReal) ≤ s.fold max ⊥ f := (Finset.le_fold_max _).2 (Or.inr ⟨x0, h0, hr.ge⟩)
    exact ne_of_gt (lt_of_lt_of_le (EReal.bot_lt_coe r) h)
  exact (EReal.coe_toReal htop hbot).symm

/-- The maximum of score row `i`, as a real number. -/
def rowMax (a b : Mat 4096) (i : Fin 4096) : ℝ := (val_main_v20 (F := Ideal) (up a) (up b) (ix1 i)).toReal

/-- The row maximum the reference takes, folding `max` from `-∞` over the 4096 scores of row `i`, is that real. -/
theorem v20_val (a b : Mat 4096) (i : Fin 4096) :
    val_main_v20 (F := Ideal) (up a) (up b) (ix1 i) = ((rowMax a b i : ℝ) : EReal) := by
  have h : S4096x4096.Reduces [1] S4096 := by decide
  have e : val_main_v20 (F := Ideal) (up a) (up b) (ix1 i)
      = (Finset.univ : Finset (Fin (S4096x4096.size 1))).fold max ⊥
          (val_main_v19 (F := Ideal) (up a) (up b) ∘ h.lift (ix1 i)) := by
    unfold val_main_v20
    generalize val_main_v19 (F := Ideal) (up a) (up b) = y
    refine (Host.reduce_eq_fold_single (FloatOps.maximumf (F := Ideal) (φ := .f32)) y _
      reducesTo_S4096x4096_S4096_d1 h h_S_ (ix1 i)).trans ?_
    rw [val_main_cst_4_apply, Ideal.ofBits_def, ofBits_neg_inf]
    rfl
  unfold rowMax
  rw [e]
  refine fold_max_real _ _ ⟨0, by decide⟩ (Finset.mem_univ _) fun k _ => ?_
  exact ⟨_, (congrArg (val_main_v19 (F := Ideal) (up a) (up b)) (eq_ix2 (h.lift (ix1 i) k))).trans (v19_val a b _ _)⟩

/-- The maximum with `-∞` changes nothing. -/
theorem v22_val (a b : Mat 4096) (i : Fin 4096) :
    val_main_v22 (F := Ideal) (up a) (up b) (ix1 i) = ((rowMax a b i : ℝ) : EReal) := by
  rw [val_main_v22_apply, val_main_v21_apply, val_main_cst_5_apply, v20_val, Ideal.maximumf_def, Ideal.ofBits_def,
    ofBits_neg_inf]
  exact max_eq_right bot_le

/-- The row maximum, broadcast along the row. -/
theorem v24_val (a b : Mat 4096) (i j : Fin 4096) :
    val_main_v24 (F := Ideal) (up a) (up b) (ix2 i j) = ((rowMax a b i : ℝ) : EReal) := by
  have e : idx_main_v23 (idx_main_v24 (ix2 i j)) = ix1 i := funext fun c => Fin.ext (by match c with | ⟨0, _⟩ => rfl)
  rw [val_main_v24_apply, val_main_v23_apply, e, v22_val]

/-- The exponential of the shifted score. -/
theorem v26_val (a b : Mat 4096) (i j : Fin 4096) :
    val_main_v26 (F := Ideal) (up a) (up b) (ix2 i j) = ((Real.exp (rscore a b i j - rowMax a b i) : ℝ) : EReal) := by
  rw [val_main_v26_apply, val_main_v25_apply, v19_val, v24_val, Ideal.subf_def, Ideal.hostUnary_exp_def, ← EReal.coe_sub,
    Ideal.exp_coe]

/-- The row's sum of exponentials. -/
theorem v27_val (a b : Mat 4096) (i : Fin 4096) :
    val_main_v27 (F := Ideal) (up a) (up b) (ix1 i)
      = ((∑ j : Fin 4096, Real.exp (rscore a b i j - rowMax a b i) : ℝ) : EReal) := by
  rw [val_main_v27_apply, val_main_cst_6_apply, Ideal.ofBits_def, ofBits_zero, zero_add, ← coe_sum]
  refine Finset.sum_congr rfl fun k _ => ?_
  have e : idx_main_v27 (ix1 i) k = ix2 i k := funext fun c => Fin.ext (by match c with | ⟨0, _⟩ => rfl | ⟨1, _⟩ => rfl)
  rw [e, v26_val]

/-- The second pair's softmax matrix is formed by the very operations that form the first's. -/
theorem v61_eq_v30 {F : FTy → Type} [FloatOps F] (x y : (⟨S4096x768, .f32⟩ : BufTy).Contents (Elt F)) :
    val_main_v61 (F := F) x y = val_main_v30 (F := F) x y := rfl

end Soft

open Soft

/-- The softmax matrix of the first pair of arguments. -/
theorem soft30 (a b : Mat 4096) : ∃ M : Fin 4096 → ℝ, ∀ i j : Fin 4096,
    val_main_v30 (F := Ideal) (up a) (up b) (ix2 i j) = ((soft (rscore a b i) (M i) j : ℝ) : EReal) := by
  refine ⟨rowMax a b, fun i j => ?_⟩
  have e : idx_main_v28 (idx_main_v29 (ix2 i j)) = ix1 i := funext fun c => Fin.ext (by match c with | ⟨0, _⟩ => rfl)
  rw [val_main_v30_apply, val_main_v29_apply, val_main_v28_apply, e, v26_val, v27_val, Ideal.hostDivf_def]
  exact div_coe_coe _ (sum_exp_pos _ _).ne'

/-- The softmax matrix of the second pair of arguments. -/
theorem soft61 (z w : Mat 4096) : ∃ M : Fin 4096 → ℝ, ∀ i j : Fin 4096,
    val_main_v61 (F := Ideal) (up z) (up w) (ix2 i j) = ((soft (rscore z w i) (M i) j : ℝ) : EReal) := by
  rw [v61_eq_v30]
  exact soft30 z w

end Cert.ReferenceIdeal.RefValue

end
-- ==== Proof.RefValue.lean ====
/-
  The reference's two results on real inputs.

  The reference normalises the rows of all four arguments, forms the two `4096 × 4096` matrices of cosine
  similarities over the temperature, takes each row's softmax (shifted by the row's maximum, a real number), and
  averages `q_t (log q_t - log q_s)` and `q_s (log q_s - log q_t)` over all entries.  On real inputs every stage is a
  real number, and the two results are the mean losses the kernel accumulates.
-/
import proofs.«418754_j678604833494_3_alg».proof.Proof.Gen.ReferenceIdeal.Run
import proofs.«418754_j678604833494_3_alg».proof.Proof.Gen.ReferenceIdeal.Read
import proofs.«418754_j678604833494_3_alg».proof.Proof.Spec
import proofs.«418754_j678604833494_3_alg».proof.Proof.RefSoft
import proofs.«418754_j678604833494_3_alg».proof.Proof.Transfer
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.BitExact.Laws

set_option maxRecDepth 16384

noncomputable section

namespace Cert.ReferenceIdeal.RefValue

open Idealize.ShloMosaic Idealize.ShloMosaic.TcCoe Idealize.ShloMosaic.ValueIdx Idealize.SL.Sem Cert.KL
open Cert.ReferenceIdeal Cert.ReferenceIdeal.Gen

open Cert.ReferenceIdeal.Read

/-- One entry of the first result's summand: `q_t (log q_t - log q_s)`, a real, once both softmax matrices are real. -/
theorem res0_entry (a b z w : Mat 4096) (Ms Mt : Fin 4096 → ℝ)
    (hs : ∀ i j : Fin 4096,
      val_main_v30 (F := Ideal) (up a) (up b) (ix2 i j) = ((soft (rscore a b i) (Ms i) j : ℝ) : EReal))
    (ht : ∀ i j : Fin 4096,
      val_main_v61 (F := Ideal) (up z) (up w) (ix2 i j) = ((soft (rscore z w i) (Mt i) j : ℝ) : EReal))
    (i j : Fin 4096) :
    val_main_v65 (F := Ideal) (up a) (up b) (up z) (up w) (ix2 i j)
      = ((soft (rscore z w i) (Mt i) j
          * (Real.log (soft (rscore z w i) (Mt i) j) - Real.log (soft (rscore a b i) (Ms i) j)) : ℝ) : EReal) := by
  rw [val_main_v65_apply, val_main_v64_apply, val_main_v63_apply, val_main_v62_apply, ht i j, hs i j]
  simp only [Ideal.mulf_def, Ideal.subf_def, Ideal.hostUnary_log_def]
  rw [Transfer.log_coe_pos (soft_pos _ _ _), Transfer.log_coe_pos (soft_pos _ _ _), ← EReal.coe_sub, ← EReal.coe_mul]

/-- One entry of the second result's summand: `q_s (log q_s - log q_t)`. -/
theorem res1_entry (a b z w : Mat 4096) (Ms Mt : Fin 4096 → ℝ)
    (hs : ∀ i j : Fin 4096,
      val_main_v30 (F := Ideal) (up a) (up b) (ix2 i j) = ((soft (rscore a b i) (Ms i) j : ℝ) : EReal))
    (ht : ∀ i j : Fin 4096,
      val_main_v61 (F := Ideal) (up z) (up w) (ix2 i j) = ((soft (rscore z w i) (Mt i) j : ℝ) : EReal))
    (i j : Fin 4096) :
    val_main_v71 (F := Ideal) (up a) (up b) (up z) (up w) (ix2 i j)
      = ((soft (rscore a b i) (Ms i) j
          * (Real.log (soft (rscore a b i) (Ms i) j) - Real.log (soft (rscore z w i) (Mt i) j)) : ℝ) : EReal) := by
  rw [val_main_v71_apply, val_main_v70_apply, val_main_v69_apply, val_main_v68_apply, ht i j, hs i j]
  simp only [Ideal.mulf_def, Ideal.subf_def, Ideal.hostUnary_log_def]
  rw [Transfer.log_coe_pos (soft_pos _ _ _), Transfer.log_coe_pos (soft_pos _ _ _), ← EReal.coe_sub, ← EReal.coe_mul]

/-- The first result on real arguments: the sum over all entries is the real double sum of the row losses, and the
    mean divides it by `4096 * 4096`. -/
theorem res0_value (a b z w : Mat 4096) (i : S_.Idx) :
    val_main_v67 (F := Ideal) (up a) (up b) (up z) (up w) i = ((lossK a b z w : ℝ) : EReal) := by
  obtain ⟨Ms, hs⟩ := soft30 a b
  obtain ⟨Mt, ht⟩ := soft61 z w
  have hsum : (∑ j : S4096x4096.Idx, val_main_v65 (F := Ideal) (up a) (up b) (up z) (up w) j)
      = ((∑ r : Fin 4096, rowR (rscore a b r) (rscore z w r) (Ms r) (Mt r) : ℝ) : EReal) := by
    rw [sum_idx2]
    refine (Finset.sum_congr rfl fun r _ => ?_).trans
      (Transfer.coe_sum Finset.univ fun r : Fin 4096 => rowR (rscore a b r) (rscore z w r) (Ms r) (Mt r))
    unfold rowR
    exact (Finset.sum_congr rfl fun j _ => res0_entry a b z w Ms Mt hs ht r j).trans (Transfer.coe_sum Finset.univ _)
  rw [val_main_v67_apply, val_main_v66_apply, hsum, val_main_cst_15_apply, val_main_cst_16_apply]
  simp only [Ideal.hostDivf_def, Ideal.ofBits_def]
  rw [Consts.ofBits_zero, Consts.ofBits_count, zero_add,
    Transfer.div_coe_coe _ (show (16777216 : ℝ) ≠ 0 by norm_num), ← lossR_eq_lossK a b z w Ms Mt]
  rfl

/-- The second result on real arguments: the same with the two softmax matrices exchanged. -/
theorem res1_value (a b z w : Mat 4096) (i : S_.Idx) :
    val_main_v73 (F := Ideal) (up a) (up b) (up z) (up w) i = ((lossK z w a b : ℝ) : EReal) := by
  obtain ⟨Ms, hs⟩ := soft30 a b
  obtain ⟨Mt, ht⟩ := soft61 z w
  have hsum : (∑ j : S4096x4096.Idx, val_main_v71 (F := Ideal) (up a) (up b) (up z) (up w) j)
      = ((∑ r : Fin 4096, rowR (rscore z w r) (rscore a b r) (Mt r) (Ms r) : ℝ) : EReal) := by
    rw [sum_idx2]
    refine (Finset.sum_congr rfl fun r _ => ?_).trans
      (Transfer.coe_sum Finset.univ fun r : Fin 4096 => rowR (rscore z w r) (rscore a b r) (Mt r) (Ms r))
    unfold rowR
    exact (Finset.sum_congr rfl fun j _ => res1_entry a b z w Ms Mt hs ht r j).trans (Transfer.coe_sum Finset.univ _)
  rw [val_main_v73_apply, val_main_v72_apply, hsum, val_main_cst_17_apply, val_main_cst_18_apply]
  simp only [Ideal.hostDivf_def, Ideal.ofBits_def]
  rw [Consts.ofBits_zero, Consts.ofBits_count, zero_add,
    Transfer.div_coe_coe _ (show (16777216 : ℝ) ≠ 0 by norm_num), ← lossR_eq_lossK z w a b Mt Ms]
  rfl

variable (m : (ℓ : Loc nD τ sig) → Buf (Elt Ideal) ℓ)

/-- The four argument arrays of core `c` hold real numbers. -/
structure RealArgs (c : Dev nD) where
  a : Mat 4096
  b : Mat 4096
  z : Mat 4096
  w : Mat 4096
  h0 : m ((c.tc : Thread nD τ).loc main_arg0) = up a
  h1 : m ((c.tc : Thread nD τ).loc main_arg1) = up b
  h2 : m ((c.tc : Thread nD τ).loc main_arg2) = up z
  h3 : m ((c.tc : Thread nD τ).loc main_arg3) = up w

variable {m}

/-- The first result: the mean of `q_t (log q_t - log q_s)`. -/
theorem res0_eq {c : Dev nD} (R : RealArgs m c) :
    Cert.ReferenceIdeal.Value.res_out0 (F := Ideal) m c = (fun _ => ((lossK R.a R.b R.z R.w : ℝ) : EReal)) := by
  show Cert.ReferenceIdeal.Value.res_main_v67 m c = _
  rw [val_main_v67_eq, R.h0, R.h1, R.h2, R.h3]
  exact funext fun i => res0_value R.a R.b R.z R.w i

/-- The second result: the mean of `q_s (log q_s - log q_t)`. -/
theorem res1_eq {c : Dev nD} (R : RealArgs m c) :
    Cert.ReferenceIdeal.Value.res_out1 (F := Ideal) m c = (fun _ => ((lossK R.z R.w R.a R.b : ℝ) : EReal)) := by
  show Cert.ReferenceIdeal.Value.res_main_v73 m c = _
  rw [val_main_v73_eq, R.h0, R.h1, R.h2, R.h3]
  exact funext fun i => res1_value R.a R.b R.z R.w i

/-- The reference's run on real inputs. -/
theorem ref_run (ρ : Dev nD → PrngReg) (R : (c : Dev nD) → RealArgs m c) :
    θ_run defs (onTc (τ := τ) (main (F := Ideal))) ⟨m, fun _ => 0, ρ⟩ (fun r => ∀ c : Dev nD,
      r.2.mem ((c.tc : Thread nD τ).loc main_v67) = (fun _ => ((lossK (R c).a (R c).b (R c).z (R c).w : ℝ) : EReal))
      ∧ r.2.mem ((c.tc : Thread nD τ).loc main_v73) = (fun _ => ((lossK (R c).z (R c).w (R c).a (R c).b : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1.trans (res0_eq (R c)), (h c).2.1.trans (res1_eq (R c)), (h c).2.2⟩)
    (Cert.ReferenceIdeal.Value.run (F := Ideal) m ρ)

end Cert.ReferenceIdeal.RefValue

end
-- ==== Proof.Finite.lean ====
/-
  The precondition says every entry of the four arguments is finite: its absolute value is below `+∞`.  An extended
  real whose absolute value is below `+∞` is a real number, so each argument array is an array of reals.
-/
import proofs.«418754_j678604833494_3_alg».proof.Pre_finite_inputs
import proofs.«418754_j678604833494_3_alg».proof.Proof.Spec
import Idealize.ShloMosaic.Lib.ReduceAll
import Idealize.ShloMosaic.Lib.ValueIdx
import Idealize.ShloMosaic.Lib.IdealHost
import Idealize.ShloMosaic.PureOps.Ideal.Laws

noncomputable section

namespace Cert.KL.Finite

open Idealize.ShloMosaic Idealize.ShloMosaic.ValueIdx Cert.KL

/-- The shape of a scalar has one index. -/
instance : Subsingleton Cert.Pre_finite_inputs.S_.Idx := ⟨fun a b => funext fun d => d.elim0⟩

/-- The word `0x7F800000` is `+∞`. -/
theorem ofBits_inf : Ideal.ofBits .f32 0x7F800000#32 = (⊤ : EReal) := by
  simp [Ideal.ofBits, Ideal.ieee]

/-- An extended real whose absolute value `max x (-x)` is below `+∞` is a real number. -/
theorem coe_toReal_of_abs_lt_top (x : EReal) (h : max x (-x) < ⊤) : x = ((x.toReal : ℝ) : EReal) := by
  have h1 : x ≠ ⊤ := by
    rintro rfl
    exact absurd h (by simp)
  have h2 : x ≠ ⊥ := by
    rintro rfl
    exact absurd h (by simp)
  exact (EReal.coe_toReal h1 h2).symm

/-- A comparison word that is one says the comparison holds. -/
theorem lt_of_cmp_olt (x y : EReal) (h : Ideal.cmp .olt x y = 1#1) : x < y := by
  by_contra hn
  unfold Ideal.cmp at h
  simp only [decide_eq_false hn] at h
  exact absurd h (by decide)

section
variable [Cert.Pre_finite_inputs.Facts]
open Cert.Pre_finite_inputs Cert.Pre_finite_inputs.Facts

/-- One array: if every entry's absolute value compares below `+∞`, the array is an array of reals. -/
theorem reals_of_all (x : FVec Ideal S4096x768 .f32)
    (h : Host.reduce IntOp.andi
        (cmpf .olt (Host.absf x)
          (broadcastInDim S4096x768 ![] bcast_S_S4096x768 (constant (F := Ideal) S_ .f32 0x7F800000#32)))
        (constantI S_ 1 1#1) reducesTo_S4096x768_S_d0_1 h_S_ ix0 = 1#1) :
    ∃ a : Mat 4096, x = up a := by
  refine ⟨fun i => (x i).toReal, funext fun i => ?_⟩
  have e := Host.reduce_andi_all _ _ _ _ _ h i
  have e' : Ideal.cmp .olt (max (x i) (-(x i))) (Ideal.ofBits .f32 0x7F800000#32) = 1#1 := by
    rw [cmpf_apply, broadcastInDim_scalar_apply, constant_apply] at e
    exact e
  rw [ofBits_inf] at e'
  exact coe_toReal_of_abs_lt_top (x i) (lt_of_cmp_olt _ _ e')

end

/-- Under the precondition the four arrays are arrays of reals. -/
theorem reals_of_pre [Cert.Pre_finite_inputs.Facts] (x0 x1 x2 x3 : FVec Ideal Cert.Pre_finite_inputs.S4096x768 .f32)
    (h : Cert.Pre_finite_inputs.fn (F := Ideal) x0 x1 x2 x3 = fun _ => 1#1) :
    ∃ a b z w : Mat 4096, x0 = up a ∧ x1 = up b ∧ x2 = up z ∧ x3 = up w := by
  have h0 := congrFun h ValueIdx.ix0
  dsimp only [Cert.Pre_finite_inputs.fn, Cert.Pre_finite_inputs.fn_part1] at h0
  obtain ⟨h012, h3⟩ := IntOp.andi_eq_one.1 h0
  obtain ⟨h01, h2⟩ := IntOp.andi_eq_one.1 h012
  obtain ⟨h0', h1⟩ := IntOp.andi_eq_one.1 h01
  obtain ⟨a, ha⟩ := reals_of_all x0 h0'
  obtain ⟨b, hb⟩ := reals_of_all x1 h1
  obtain ⟨z, hz⟩ := reals_of_all x2 h2
  obtain ⟨w, hw⟩ := reals_of_all x3 h3
  exact ⟨a, b, z, w, ha, hb, hz, hw⟩

end Cert.KL.Finite

end
-- ==== Proof.lean ====
/-
  The certificate of a symmetric KL-divergence loss between two cosine-similarity softmaxes.

  The kernel streams the two `4096 × 4096` score matrices tile by tile: for each block of 1024 rows it normalises and
  scales the row operands once, and over eight blocks of 512 columns accumulates, per row, `∑ exp (s - c)`,
  `∑ exp (t - c)` and `∑ exp (·  - c) (s - t)` under ONE constant shift `c`; the last column step turns the four
  accumulators into the row's two losses; the host averages them.  The reference forms both softmax matrices whole
  (each row shifted by its maximum) and averages `q (log q - log q')`.  Over the reals the two agree: a softmax does
  not depend on its shift, its logarithm is the shifted score minus the log-sum-exp, and each softmax row sums to one
  (Proof/RealMath.lean).  The kernel's scale `10` is the folded reciprocal of the reference's temperature and is read
  as that reciprocal; with every input finite every intermediate is a real number, which is what lets the scale move
  across the contraction and the sums regroup.
-/
import proofs.«418754_j678604833494_3_alg».proof.Defs
import proofs.«418754_j678604833494_3_alg».proof.Proof.Gen.Kernel
import proofs.«418754_j678604833494_3_alg».proof.Proof.Gen.Kernel.Skeleton
import proofs.«418754_j678604833494_3_alg».proof.Proof.Gen.Kernel.Launch
import proofs.«418754_j678604833494_3_alg».proof.Proof.Gen.Kernel.Points
import proofs.«418754_j678604833494_3_alg».proof.Proof.Gen.Kernel.Frame
import proofs.«418754_j678604833494_3_alg».proof.Proof.Gen.KernelIdeal
import proofs.«418754_j678604833494_3_alg».proof.Proof.Gen.KernelIdeal.Skeleton
import proofs.«418754_j678604833494_3_alg».proof.Proof.Gen.KernelIdeal.Launch
import proofs.«418754_j678604833494_3_alg».proof.Proof.Gen.KernelIdeal.Points
import proofs.«418754_j678604833494_3_alg».proof.Proof.Gen.KernelIdeal.Frame
import proofs.«418754_j678604833494_3_alg».proof.Proof.Gen.ReferenceIdeal
import proofs.«418754_j678604833494_3_alg».proof.Proof.Gen.Pre_finite_inputs
import proofs.«418754_j678604833494_3_alg».proof.Proof.Gen.ReferenceIdeal.Run
import proofs.«418754_j678604833494_3_alg».proof.Proof.Gen.ReferenceIdeal.Read
import proofs.«418754_j678604833494_3_alg».proof.Proof.Final
import proofs.«418754_j678604833494_3_alg».proof.Proof.RefValue
import proofs.«418754_j678604833494_3_alg».proof.Proof.Finite
import Idealize.ShloMosaic.Adequacy
import Idealize.ShloMosaic.Init

noncomputable section

namespace Cert.Proof

open Idealize.ShloMosaic Idealize.SL.Sem Cert.KL

/-- The word-level kernel runs and keeps its arguments. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a straight line of host operations: it runs, and its run keeps the arguments. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The two sites where the kernel's scale is read as the reciprocal temperature. -/
theorem preserves : Cert.preserves_Kernel_KernelIdeal :=
  ⟨IdealRules.named_const.statement Cert.KernelIdeal.κ "inv_temperature" .f32 0x41200000#32
      ((134217728 / 13421773 : ℝ) : EReal) rfl,
   IdealRules.named_const.statement Cert.KernelIdeal.κ "inv_temperature" .f32 0x41200000#32
      ((134217728 / 13421773 : ℝ) : EReal) rfl⟩

/-- On finite inputs both programs end with the two mean losses. -/
theorem algebraic : Cert.algebraic_KernelIdeal_ReferenceIdeal := by
  intro m ρ m' ρ' hpre hagree
  have hR : ∀ c : Dev Cert.KernelIdeal.nD, ∃ a b z w : Mat 4096,
      m ((c.tc : Thread Cert.KernelIdeal.nD Cert.KernelIdeal.τ).loc Cert.KernelIdeal.main_arg0) = up a
      ∧ m ((c.tc : Thread Cert.KernelIdeal.nD Cert.KernelIdeal.τ).loc Cert.KernelIdeal.main_arg1) = up b
      ∧ m ((c.tc : Thread Cert.KernelIdeal.nD Cert.KernelIdeal.τ).loc Cert.KernelIdeal.main_arg2) = up z
      ∧ m ((c.tc : Thread Cert.KernelIdeal.nD Cert.KernelIdeal.τ).loc Cert.KernelIdeal.main_arg3) = up w :=
    fun c => Cert.KL.Finite.reals_of_pre _ _ _ _ (hpre c)
  choose a b z w h0 h1 h2 h3 using hR
  exact ⟨fun c _ => ((lossK (a c) (b c) (z c) (w c) : ℝ) : EReal), fun c _ => ((lossK (z c) (w c) (a c) (b c) : ℝ) : EReal),
    Cert.KernelIdeal.Gen.kernel_run ρ (fun c => ⟨a c, b c, z c, w c, h0 c, h1 c, h2 c, h3 c⟩),
    Cert.ReferenceIdeal.RefValue.ref_run ρ' (fun c => ⟨a c, b c, z c, w c, (hagree c).1.trans (h0 c),
      (hagree c).2.1.trans (h1 c), (hagree c).2.2.1.trans (h2 c), (hagree c).2.2.2.trans (h3 c)⟩)⟩

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
